-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S128x10000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128x64 : Shape := ⟨2, ![128, 64]⟩
abbrev S64 : Shape := ⟨1, ![64]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1000000x128 .f32) (main_arg1 : IVec S1000000 32) (main_arg2 : FVec F S128x64 .f32) (main_arg3 : FVec F S64 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S1000000x128 : Shape := ⟨2, ![1000000, 128]⟩
abbrev S1000000 : Shape := ⟨1, ![1000000]⟩
abbrev S128x64 : Shape := ⟨2, ![128, 64]⟩
abbrev S64 : Shape := ⟨1, ![64]⟩
abbrev S100x10000 : Shape := ⟨2, ![100, 10000]⟩
abbrev S100x1x10000 : Shape := ⟨3, ![100, 1, 10000]⟩
abbrev S2x128x128 : Shape := ⟨3, ![2, 128, 128]⟩
abbrev S2x128x1 : Shape := ⟨3, ![2, 128, 1]⟩
abbrev S10000x128 : Shape := ⟨2, ![10000, 128]⟩
abbrev S1x1x10000 : Shape := ⟨3, ![1, 1, 10000]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S128x10000 : Shape := ⟨2, ![128, 10000]⟩
abbrev S1x10000 : Shape := ⟨2, ![1, 10000]⟩
abbrev S128 : Shape := ⟨1, ![128]⟩
abbrev S_ : Shape := ⟨0, ![]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 34
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x64, .f32⟩
  | .hbm, ⟨3, _⟩ => ⟨S64, .f32⟩
  | .hbm, ⟨4, _⟩ => ⟨S100x10000, .i32⟩
  | .hbm, ⟨5, _⟩ => ⟨S100x1x10000, .i32⟩
  | .hbm, ⟨6, _⟩ => ⟨S2x128x128, .f32⟩
  | .hbm, ⟨7, _⟩ => ⟨S2x128x1, .f32⟩
  | .hbm, ⟨8, _⟩ => ⟨S_, .f32⟩
  | .hbm, ⟨9, _⟩ => ⟨S128x128, .f32⟩
  | .hbm, ⟨10, _⟩ => ⟨S64x128, .f32⟩
  | .hbm, ⟨11, _⟩ => ⟨S_, .f32⟩
  | .hbm, ⟨12, _⟩ => ⟨S128x1, .f32⟩
  | .hbm, ⟨13, _⟩ => ⟨S64x1, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64x64, .f32⟩
  | .hbm, ⟨19, _⟩ => ⟨S64x1, .f32⟩
  | .hbm, ⟨20, _⟩ => ⟨S_, .f32⟩
  | .hbm, ⟨21, _⟩ => ⟨S64x1, .f32⟩
  | .hbm, ⟨22, _⟩ => ⟨S64x1, .i1⟩
  | .hbm, ⟨23, _⟩ => ⟨S1x64, .f32⟩
  | .hbm, ⟨24, _⟩ => ⟨S_, .f32⟩
  | .hbm, ⟨25, _⟩ => ⟨S_, .f32⟩
  | .hbm, ⟨26, _⟩ => ⟨S64x64, .i1⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x1, .f32⟩
  | .hbm, ⟨31, _⟩ => ⟨S64x64, .f32⟩
  | .hbm, ⟨32, _⟩ => ⟨S64x64, .f32⟩
  | .hbm, ⟨33, _⟩ => ⟨S64x64, .f32⟩
  | .local _ .vmem, ⟨0, _⟩ => ⟨S10000x128, .f32⟩
  | .local _ .vmem, ⟨1, _⟩ => ⟨S10000x128, .f32⟩
  | .local _ .vmem, ⟨2, _⟩ => ⟨S1x1x10000, .i32⟩
  | .local _ .vmem, ⟨3, _⟩ => ⟨S1x1x10000, .i32⟩
  | .local _ .vmem, ⟨4, _⟩ => ⟨S1x128x128, .f32⟩
  | .local _ .vmem, ⟨5, _⟩ => ⟨S1x128x128, .f32⟩
  | .local _ .vmem, ⟨6, _⟩ => ⟨S1x128x1, .f32⟩
  | .local _ .vmem, ⟨7, _⟩ => ⟨S1x128x1, .f32⟩
  | .local _ .vmem, ⟨8, _⟩ => ⟨S128x128, .f32⟩
  | .local _ .vmem, ⟨9, _⟩ => ⟨S128x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v27 : BitVec 1 := Scalar.cmpi .eq arg1 c49_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1000000_S100x10000 : S1000000.ShapeCasts S100x10000
  bcast_S100x10000_S100x1x10000_0_2 : S100x10000.BroadcastsInDim S100x1x10000 (![0, 2] : Fin 2 → Fin S100x1x10000.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  iota_S128x10000_d0_w32 : S128x10000.Iotas .tc 32 [0]
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  broadcasts_S1x10000_S128x10000 : S1x10000.Broadcasts S128x10000
  natLt_1_32 : 1 < 32
  reduces_S128x10000_S128 : S128x10000.Reduces [1] S128
  shapeCasts_S128_S128x1 : S128.ShapeCasts S128x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S2x128x128_S128x128_d0 : S2x128x128.ReducesTo [0] S128x128
  h_S_ : 0 < S_.numel
  slices_S128x128_S64x128_0_0 : S128x128.Slices ![0, 0] S64x128
  reducesTo_S2x128x1_S128x1_d0 : S2x128x1.ReducesTo [0] S128x1
  slices_S128x1_S64x1_0_0 : S128x1.Slices ![0, 0] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  dot_S128x10000_S10000x128_S128x128_1_0_0_1_n_n_wf : DotDims.WF S128x10000 S10000x128 S128x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x10000.size a ≤ S100x1x10000.size a
  hwx0_1 : ∀ i : grid0.Coords, EltTy.bits .i32 = 32 ∨ (Rect.block (s := S100x1x10000) S1x1x10000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)

variable [Facts₀]

def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1000000x128 : Shape := ⟨2, ![1000000, 128]⟩
abbrev S1000000 : Shape := ⟨1, ![1000000]⟩
abbrev S128x64 : Shape := ⟨2, ![128, 64]⟩
abbrev S64 : Shape := ⟨1, ![64]⟩
abbrev S1000000x64 : Shape := ⟨2, ![1000000, 64]⟩
abbrev S1x64 : Shape := ⟨2, ![1, 64]⟩
abbrev S_ : Shape := ⟨0, ![]⟩
abbrev S64x64 : Shape := ⟨2, ![64, 64]⟩
abbrev S1000000x1 : Shape := ⟨2, ![1000000, 1]⟩
abbrev S64x1 : Shape := ⟨2, ![64, 1]⟩

abbrev nBuf : Space → Nat
  | .hbm => 24
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x64, .f32⟩
  | .hbm, ⟨3, _⟩ => ⟨S64, .f32⟩
  | .hbm, ⟨4, _⟩ => ⟨S1000000x64, .f32⟩
  | .hbm, ⟨5, _⟩ => ⟨S1x64, .f32⟩
  | .hbm, ⟨6, _⟩ => ⟨S1000000x64, .f32⟩
  | .hbm, ⟨7, _⟩ => ⟨S1000000x64, .f32⟩
  | .hbm, ⟨8, _⟩ => ⟨S_, .f32⟩
  | .hbm, ⟨9, _⟩ => ⟨S64x64, .f32⟩
  | .hbm, ⟨10, _⟩ => ⟨S1000000x1, .i32⟩
  | .hbm, ⟨11, _⟩ => ⟨S64x64, .f32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S64, .f32⟩
  | .hbm, ⟨16, _⟩ => ⟨S1000000x1, .i32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S64x64, .f32⟩
  | .hbm, ⟨23, _⟩ => ⟨S64x64, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S64x64 : S_.BroadcastsInDim S64x64 (![] : Fin 0 → Fin S64x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S1000000x128_S128x64_S1000000x64_1_0_0_1_n_n_wf : DotDims.WF S1000000x128 S128x64 S1000000x64 [1] [0] [0] [1] [] []
  scatter_S64x64_S1000000x1_S1000000x64_1_0_0_1_wf : ScatterDims.WF S64x64 S1000000x1 S1000000x64 [1] [0] [0] 1
  scatter_S64_S1000000x1_S1000000_n_0_0_1_wf : ScatterDims.WF S64 S1000000x1 S1000000 [] [0] [0] 1

variable [Facts₀]

def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S64x64_S1000000x1_S1000000x64_1_0_0_1 : ScatterDims S64x64 S1000000x1 S1000000x64 where
  updateWindowDims := [1]
  insertedWindowDims := [0]
  scatterDimsToOperandDims := [0]
  indexVectorDim := 1
  wf := scatter_S64x64_S1000000x1_S1000000x64_1_0_0_1_wf
def scatter_S64_S1000000x1_S1000000_n_0_0_1 : ScatterDims S64 S1000000x1 S1000000 where
  updateWindowDims := []
  insertedWindowDims := [0]
  scatterDimsToOperandDims := [0]
  indexVectorDim := 1
  wf := scatter_S64_S1000000x1_S1000000_n_0_0_1_wf

class Facts : Prop extends Facts₀ where

variable [Facts]
-- ==== Proof.Spec.lean ====
/-
  Class prototypes: the mean, over the rows of each class, of a linear embedding of the rows.

  Inputs: a table of rows `X : [1000000, 128]`, a class label per row `lab : [1000000]` (32-bit words, read as signed
  integers), a matrix `W : [128, 64]` and a bias `b : [64]`. Row `n` belongs to class `c` when its label, read signed,
  is `c`; labels outside `0 … 63` belong to no class.

  Two ways to write the prototype of class `c` at output coordinate `e`, both over the extended reals:
  * pooling first (`protoPooled`): the rows of the class are summed coordinate by coordinate (`classSum`), the sum is
    multiplied into `W`, divided by the class size (`classCount`, at least one), and the bias is added when the class is
    not empty;
  * embedding first (`protoEmbedded`): each row is embedded (`X[n,:] · W[:,e] + b[e]`), the embedded rows of the class
    are summed, and the sum is divided by the class size (at least one).
  On finite inputs the two agree: the embedding is linear, so it commutes with the sum over the class, and the bias
  summed over a class of size `k ≥ 1` and divided by `k` is the bias.
-/
import Idealize.ShloMosaic.PureOps.Ideal
import Idealize.ShloMosaic.Lib.ValueIdx

noncomputable section

namespace Cert.Proto

open Idealize.ShloMosaic Idealize.ShloMosaic.ValueIdx

/-- The shapes of the four inputs and of the result. -/
abbrev SX : Shape := ⟨2, ![1000000, 128]⟩
abbrev SL : Shape := ⟨1, ![1000000]⟩
abbrev SW : Shape := ⟨2, ![128, 64]⟩
abbrev SB : Shape := ⟨1, ![64]⟩
abbrev SO : Shape := ⟨2, ![64, 64]⟩

/-- Coordinate `d` of the rows of class `c`, summed: a row of another class contributes zero. -/
def classSum (X : FVec Ideal SX .f32) (lab : IVec SL 32) (c : ℕ) (d : Fin 128) : EReal :=
  ∑ n : Fin 1000000, if (lab (ix1 n)).toInt = (c : ℤ) then X (ix2 n d) else 0

/-- The number of rows of class `c`, as an extended real. -/
def classCount (lab : IVec SL 32) (c : ℕ) : EReal :=
  ∑ n : Fin 1000000, if (lab (ix1 n)).toInt = (c : ℤ) then (1 : EReal) else 0

/-- Pooling first: `(classSum c · W[:, e]) / max(count c, 1) + (b[e] if count c > 0 else 0)`. -/
def protoPooled (X : FVec Ideal SX .f32) (lab : IVec SL 32) (W : FVec Ideal SW .f32) (b : FVec Ideal SB .f32)
    (c e : Fin 64) : EReal :=
  Ideal.div (∑ d : Fin 128, classSum X lab c.val d * W (ix2 d e)) (max (classCount lab c.val) 1)
    + (if 0 < classCount lab c.val then b (ix1 e) else 0)

/-- Embedding first: `(∑ over the rows n of class c of (X[n, :] · W[:, e] + b[e])) / max(count c, 1)`. -/
def protoEmbedded (X : FVec Ideal SX .f32) (lab : IVec SL 32) (W : FVec Ideal SW .f32) (b : FVec Ideal SB .f32)
    (c e : Fin 64) : EReal :=
  Ideal.div (∑ n : Fin 1000000, if (lab (ix1 n)).toInt = (c.val : ℤ)
      then (∑ d : Fin 128, X (ix2 n d) * W (ix2 d e)) + b (ix1 e) else 0)
    (max (classCount lab c.val) 1)

/-- The result array, pooling first. -/
def resultPooled (X : FVec Ideal SX .f32) (lab : IVec SL 32) (W : FVec Ideal SW .f32) (b : FVec Ideal SB .f32) :
    FVec Ideal SO .f32 := fun i => protoPooled X lab W b (i 0) (i 1)

/-- The result array, embedding first. -/
def resultEmbedded (X : FVec Ideal SX .f32) (lab : IVec SL 32) (W : FVec Ideal SW .f32) (b : FVec Ideal SB .f32) :
    FVec Ideal SO .f32 := fun i => protoEmbedded X lab W b (i 0) (i 1)

theorem resultPooled_apply (X : FVec Ideal SX .f32) (lab : IVec SL 32) (W : FVec Ideal SW .f32) (b : FVec Ideal SB .f32)
    (c e : Fin 64) : resultPooled X lab W b (ix2 c e) = protoPooled X lab W b c e := rfl

theorem resultEmbedded_apply (X : FVec Ideal SX .f32) (lab : IVec SL 32) (W : FVec Ideal SW .f32) (b : FVec Ideal SB .f32)
    (c e : Fin 64) : resultEmbedded X lab W b (ix2 c e) = protoEmbedded X lab W b c e := rfl

end Cert.Proto

end
-- ==== Proof.Algebra.lean ====
/-
  The two ways of writing a class prototype agree on finite inputs.

  Write `I n` for "row `n` has class `c`", `k` for the number of such rows, `S d = ∑ n, [I n] x n d` for the pooled
  coordinate `d`, and `A = ∑ d, S d * w d`. Exchanging the two sums and pulling the constant factor `w d` out gives
  `∑ n, [I n] (∑ d, x n d * w d + β) = A + k * β`. The count `k` is a natural number, so either `k = 0`, where both
  forms are `A / 1 + 0`, or `k ≥ 1`, where `max k 1 = k` and `(A + k * β) / k = A / k + β`.

  This is an identity of real numbers; finite extended reals add, multiply, compare and take maxima as the reals they
  are, and the quotient by a nonzero real is the product with its reciprocal, so the identity lifts.
-/
import proofs.«407838_j70454643524168_3_alg».proof.Proof.Spec
import Mathlib.Algebra.BigOperators.Ring.Finset
import Mathlib.Algebra.Order.BigOperators.Group.Finset
import Mathlib.Data.EReal.Basic
import Mathlib.Data.EReal.Operations
import Mathlib.Tactic.FieldSimp
import Mathlib.Tactic.Ring
import Mathlib.Tactic.Linarith

noncomputable section

namespace Cert.Proto

open Idealize.ShloMosaic Idealize.ShloMosaic.ValueIdx

/-! ### The identity over the reals -/

section Real

variable {ι κ : Type} [Fintype ι] [Fintype κ]

/-- Summing the embedded rows of a class: the embedding is linear, so the sum is the embedded pooled row plus the
    bias once per row of the class. -/
theorem sum_embedded_real (I : ι → Prop) [DecidablePred I] (x : ι → κ → ℝ) (w : κ → ℝ) (β : ℝ) :
    (∑ n, if I n then (∑ d, x n d * w d) + β else 0)
      = (∑ d, (∑ n, if I n then x n d else 0) * w d) + (∑ n, if I n then (1 : ℝ) else 0) * β := by
  have h1 : ∀ n, (if I n then (∑ d, x n d * w d) + β else 0)
      = (∑ d, (if I n then x n d else 0) * w d) + (if I n then (1 : ℝ) else 0) * β := by
    intro n
    by_cases h : I n
    · simp only [if_pos h, one_mul]
    · simp only [if_neg h, zero_mul, Finset.sum_const_zero, add_zero]
  rw [Finset.sum_congr rfl (fun n _ => h1 n), Finset.sum_add_distrib, Finset.sum_comm, ← Finset.sum_mul]
  congr 1
  exact Finset.sum_congr rfl (fun d _ => (Finset.sum_mul _ _ _).symm)

/-- The two forms of the prototype, over the reals, the quotient written as a product with the reciprocal. -/
theorem proto_real (I : ι → Prop) [DecidablePred I] (x : ι → κ → ℝ) (w : κ → ℝ) (β : ℝ) :
    (∑ d, (∑ n, if I n then x n d else 0) * w d) * (1 / max (∑ n, if I n then (1 : ℝ) else 0) 1)
        + (if 0 < (∑ n, if I n then (1 : ℝ) else 0) then β else 0)
      = (∑ n, if I n then (∑ d, x n d * w d) + β else 0) * (1 / max (∑ n, if I n then (1 : ℝ) else 0) 1) := by
  rw [sum_embedded_real]
  -- the count is a natural number
  have hk : (∑ n, if I n then (1 : ℝ) else 0) = ((Finset.univ.filter I).card : ℝ) := Finset.sum_boole I Finset.univ
  rw [hk]
  generalize (Finset.univ.filter I).card = m
  generalize (∑ d, (∑ n, if I n then x n d else 0) * w d) = A
  rcases Nat.eq_zero_or_pos m with hm | hm
  · subst hm
    simp only [Nat.cast_zero, lt_irrefl, if_false, zero_mul, add_zero]
  · have h1 : (1 : ℝ) ≤ (m : ℝ) := by exact_mod_cast hm
    have h0 : (0 : ℝ) < (m : ℝ) := by linarith
    rw [max_eq_left h1, if_pos h0]
    field_simp

end Real

/-! ### Finite extended reals compute as reals -/

section Lift

/-- The coercion of a finite sum of reals is the sum of the coercions. -/
theorem coe_sum_real {ι : Type} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

/-- A sum of finite values over the members of a class is the coercion of the real sum. -/
theorem sum_ite_coe {ι : Type} (s : Finset ι) (I : ι → Prop) [DecidablePred I] (f : ι → ℝ) :
    (∑ n ∈ s, if I n then (f n : EReal) else 0) = ((∑ n ∈ s, if I n then f n else 0 : ℝ) : EReal) := by
  rw [coe_sum_real]
  refine Finset.sum_congr rfl (fun n _ => ?_)
  by_cases h : I n
  · rw [if_pos h, if_pos h]
  · rw [if_neg h, if_neg h, EReal.coe_zero]

/-- The maximum of two finite values is the coercion of the real maximum. -/
theorem coe_max_real (a b : ℝ) : max (a : EReal) (b : EReal) = ((max a b : ℝ) : EReal) :=
  (EReal.coe_strictMono.monotone.map_max).symm

variable {ι κ : Type} [Fintype ι] [Fintype κ]

/-- The two forms of the prototype agree, over abstract finite index types, on finite values. -/
theorem proto_ereal (I : ι → Prop) [DecidablePred I] (x : ι → κ → ℝ) (w : κ → ℝ) (β : ℝ) :
    Ideal.div (∑ d, (∑ n, if I n then ((x n d : ℝ) : EReal) else 0) * ((w d : ℝ) : EReal))
          (max (∑ n, if I n then (1 : EReal) else 0) 1)
        + (if 0 < (∑ n, if I n then (1 : EReal) else 0) then ((β : ℝ) : EReal) else 0)
      = Ideal.div (∑ n, if I n then (∑ d, ((x n d : ℝ) : EReal) * ((w d : ℝ) : EReal)) + ((β : ℝ) : EReal) else 0)
          (max (∑ n, if I n then (1 : EReal) else 0) 1) := by
  -- the count
  have hk : (∑ n, if I n then (1 : EReal) else 0) = ((∑ n, if I n then (1 : ℝ) else 0 : ℝ) : EReal) := by
    have := sum_ite_coe Finset.univ I (fun _ => (1 : ℝ))
    simpa only [EReal.coe_one] using this
  -- the pooled numerator
  have hA : (∑ d, (∑ n, if I n then ((x n d : ℝ) : EReal) else 0) * ((w d : ℝ) : EReal))
      = ((∑ d, (∑ n, if I n then x n d else 0) * w d : ℝ) : EReal) := by
    rw [coe_sum_real]
    refine Finset.sum_congr rfl (fun d _ => ?_)
    rw [sum_ite_coe Finset.univ I (fun n => x n d), EReal.coe_mul]
  -- the embedded numerator
  have hB : (∑ n, if I n then (∑ d, ((x n d : ℝ) : EReal) * ((w d : ℝ) : EReal)) + ((β : ℝ) : EReal) else 0)
      = ((∑ n, if I n then (∑ d, x n d * w d) + β else 0 : ℝ) : EReal) := by
    rw [← sum_ite_coe Finset.univ I (fun n => (∑ d, x n d * w d) + β)]
    refine Finset.sum_congr rfl (fun n _ => ?_)
    by_cases h : I n
    · rw [if_pos h, if_pos h, EReal.coe_add, coe_sum_real]
      simp only [EReal.coe_mul]
    · rw [if_neg h, if_neg h]
  -- the divisor is a real, at least one
  have hpos : (0 : ℝ) < max (∑ n, if I n then (1 : ℝ) else 0) 1 := lt_max_of_lt_right one_pos
  have hbias : (if (0 : EReal) < ((∑ n, if I n then (1 : ℝ) else 0 : ℝ) : EReal) then ((β : ℝ) : EReal) else 0)
      = ((if 0 < (∑ n, if I n then (1 : ℝ) else 0) then β else 0 : ℝ) : EReal) := by
    by_cases h : 0 < (∑ n, if I n then (1 : ℝ) else 0)
    · rw [if_pos h, if_pos (EReal.coe_pos.mpr h)]
    · rw [if_neg h, if_neg (fun h' => h (EReal.coe_pos.mp h')), EReal.coe_zero]
  rw [hk, hA, hB, hbias, ← EReal.coe_one, coe_max_real, Ideal.div_coe hpos.ne', Ideal.div_coe hpos.ne',
    ← EReal.coe_mul, ← EReal.coe_mul, ← EReal.coe_add, proto_real]

end Lift

/-! ### The certificate's statements -/

theorem protoPooled_eq_protoEmbedded (X : FVec Ideal SX .f32) (lab : IVec SL 32) (W : FVec Ideal SW .f32)
    (b : FVec Ideal SB .f32)
    (hX : ∀ i, ∃ r : ℝ, X i = (r : EReal)) (hW : ∀ i, ∃ r : ℝ, W i = (r : EReal))
    (hb : ∀ i, ∃ r : ℝ, b i = (r : EReal))
    (c e : Fin 64) : protoPooled X lab W b c e = protoEmbedded X lab W b c e := by
  choose x hx using hX
  choose w hw using hW
  choose β hβ using hb
  unfold protoPooled protoEmbedded classSum classCount
  simp only [hx, hw, hβ]
  exact proto_ereal (fun n : Fin 1000000 => (lab (ix1 n)).toInt = ((c.val : ℕ) : ℤ))
    (fun n (d : Fin 128) => x (ix2 n d)) (fun d => w (ix2 d e)) (β (ix1 e))

theorem resultPooled_eq_resultEmbedded (X : FVec Ideal SX .f32) (lab : IVec SL 32) (W : FVec Ideal SW .f32)
    (b : FVec Ideal SB .f32)
    (hX : ∀ i, ∃ r : ℝ, X i = (r : EReal)) (hW : ∀ i, ∃ r : ℝ, W i = (r : EReal))
    (hb : ∀ i, ∃ r : ℝ, b i = (r : EReal)) :
    resultPooled X lab W b = resultEmbedded X lab W b :=
  funext fun i => protoPooled_eq_protoEmbedded X lab W b hX hW hb (i 0) (i 1)

end Cert.Proto

end
-- ==== Proof.Finite.lean ====
/-
  The precondition read back at the ideal floats: when the printed predicate answers 1, every entry of the
  three float arrays is a real number.

  The predicate is the conjunction of three all-reductions by `and`; each reduces the elementwise compare
  `|x| < +∞`. A reduction by `and` into the one index that is 1 had a 1 at every entry, and an extended
  real whose absolute value lies strictly below ⊤ is neither ⊥ nor ⊤, hence a real.
-/
import proofs.«407838_j70454643524168_3_alg».proof.Pre_finite_inputs
import proofs.«407838_j70454643524168_3_alg».proof.Proof.Gen.Pre_finite_inputs
import Idealize.ShloMosaic.Lib.ReduceAll
import Idealize.ShloMosaic.Lib.ValueIdx
import Idealize.ShloMosaic.PureOps.Ideal.Laws

noncomputable section

namespace Cert.Proto.Finite

open Idealize.ShloMosaic

/-- The bit pattern of +∞ denotes ⊤. -/
theorem inf_word : Ideal.ofBits .f32 0x7F800000#32 = (⊤ : EReal) := by simp [Ideal.ofBits, Ideal.ieee]

/-- An extended real whose absolute value `max x (-x)` lies strictly below ⊤ is a real number. -/
theorem real_of_abs_lt (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The rank-0 shape has one index. -/
theorem subsingleton_scalar : Subsingleton Cert.Pre_finite_inputs.S_.Idx :=
  ⟨fun a b => funext fun d => d.elim0⟩

/-- One array: an entry whose compare word `|x i| < +∞` is 1 is a real number. -/
theorem real_of_word {s : Shape} (x : FVec Ideal s .f32)
    (hb : Cert.Pre_finite_inputs.S_.BroadcastsInDim s (![] : Fin 0 → Fin s.rank)) (i : s.Idx)
    (h : cmpf .olt (Host.absf x)
      (broadcastInDim s ![] hb (constant Cert.Pre_finite_inputs.S_ .f32 0x7F800000#32)) i = 1#1) :
    ∃ r : ℝ, x i = (r : EReal) := by
  refine real_of_abs_lt (x i) ?_
  rw [← inf_word]
  exact h

theorem real_of_pre [Cert.Pre_finite_inputs.Facts] (x0 : FVec Ideal Cert.Pre_finite_inputs.S1000000x128 .f32) (x1 : IVec Cert.Pre_finite_inputs.S1000000 32)
    (x2 : FVec Ideal Cert.Pre_finite_inputs.S128x64 .f32) (x3 : FVec Ideal Cert.Pre_finite_inputs.S64 .f32)
    (h : Cert.Pre_finite_inputs.fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn] at h0
  obtain ⟨h01, h3⟩ := IntOp.andi_eq_one.1 h0
  obtain ⟨h1, h2⟩ := IntOp.andi_eq_one.1 h01
  haveI := subsingleton_scalar
  exact ⟨fun i => real_of_word x0 _ i (Host.reduce_andi_all _ _ _ _ _ h1 i),
    fun i => real_of_word x2 _ i (Host.reduce_andi_all _ _ _ _ _ h2 i),
    fun i => real_of_word x3 _ i (Host.reduce_andi_all _ _ _ _ _ h3 i)⟩

end Cert.Proto.Finite

end
-- ==== Proof.LibRowScatterAdd.lean ====
/-
  A row scatter-add read at an entry, at any extents and index width.

  What `z.at[idx].add(u)` of a table `z : [N, C]` at a vector of row numbers kept as a column `idx : [M, 1]` and
  rows `u : [M, C]` is: a scatter with update window axis `1`, inserted window axis `0`, the scatter map `[0]`
  and the index vector on axis `1`, its body an exact sum. Row `e` of the updates is added to the row of the table
  whose number is `idx[e, 0]` read as a signed integer; a row whose number is not in `[0, N)` is dropped. Read at
  `(i, k)` the result is the table's entry plus the sum of `u[e, k]` over the rows `e` whose number is `i`.
-/
import Idealize.ShloMosaic.PureOps.Contract
import Idealize.ShloMosaic.PureOps.Ideal
import Idealize.ShloMosaic.Lib.ValueIdx

noncomputable section

namespace Idealize.ShloMosaic.RowScatterAdd

open Idealize.ShloMosaic Idealize.ShloMosaic.ValueIdx

section
variable {N C M : ℕ} (wf : ScatterDims.WF ⟨2, ![N, C]⟩ ⟨2, ![M, 1]⟩ ⟨2, ![M, C]⟩ [1] [0] [0] 1)

/-- Where update index `(e, k)` reads its one start component: row `e` of the index column. -/
theorem siIdx_eq (e : Fin M) (k : Fin C) (c : Fin 1) :
    (⟨[1], [0], [0], 1, wf⟩ : ScatterDims ⟨2, ![N, C]⟩ ⟨2, ![M, 1]⟩ ⟨2, ![M, C]⟩).siIdx (ix2 e k) c
      = ix2 e (0 : Fin 1) := by
  funext b
  refine Fin.ext ?_
  match b with
  | ⟨0, _⟩ => rfl
  | ⟨1, _⟩ =>
    show c.val = 0
    omega

/-- On the row axis the window starts at the number of row `e`, read signed. -/
theorem start_0 {w : ℕ} (idx : IVec ⟨2, ![M, 1]⟩ w) (e : Fin M) (k : Fin C) :
    (⟨[1], [0], [0], 1, wf⟩ : ScatterDims ⟨2, ![N, C]⟩ ⟨2, ![M, 1]⟩ ⟨2, ![M, C]⟩).start (ix2 e k) idx (0 : Fin 2)
      = (idx (ix2 e (0 : Fin 1))).toInt := by
  have ha : (0 : Fin 2) ∈ ([0] : List (Fin 2)) := List.mem_singleton.2 rfl
  unfold ScatterDims.start
  rw [dif_pos ha, siIdx_eq]

/-- On the column axis, which the scatter map does not name, the window starts at zero. -/
theorem start_1 {w : ℕ} (idx : IVec ⟨2, ![M, 1]⟩ w) (e : Fin M) (k : Fin C) :
    (⟨[1], [0], [0], 1, wf⟩ : ScatterDims ⟨2, ![N, C]⟩ ⟨2, ![M, 1]⟩ ⟨2, ![M, C]⟩).start (ix2 e k) idx (1 : Fin 2)
      = 0 := by
  have ha : (1 : Fin 2) ∉ ([0] : List (Fin 2)) := by decide
  unfold ScatterDims.start
  rw [dif_neg ha]

/-- The row axis is inserted, so the window coordinate on it is zero. -/
theorem window_0 (e : Fin M) (k : Fin C) :
    (⟨[1], [0], [0], 1, wf⟩ : ScatterDims ⟨2, ![N, C]⟩ ⟨2, ![M, 1]⟩ ⟨2, ![M, C]⟩).window (ix2 e k) (0 : Fin 2)
      = 0 := by
  unfold ScatterDims.window
  rw [dif_neg]
  simp [ScatterDims.sKept, Shape.kept]

/-- The column axis is the window axis: the window coordinate on it is the update's column. -/
theorem window_1 (e : Fin M) (k : Fin C) :
    (⟨[1], [0], [0], 1, wf⟩ : ScatterDims ⟨2, ![N, C]⟩ ⟨2, ![M, 1]⟩ ⟨2, ![M, C]⟩).window (ix2 e k) (1 : Fin 2)
      = k.val := by
  have hk : (1 : Fin 2) ∈ (⟨[1], [0], [0], 1, wf⟩ : ScatterDims ⟨2, ![N, C]⟩ ⟨2, ![M, 1]⟩ ⟨2, ![M, C]⟩).sKept := by
    simp [ScatterDims.sKept, Shape.kept]
  unfold ScatterDims.window
  rw [dif_pos hk]
  rfl

/-- Update `(e, k')` lands at entry `(i, k)` exactly when the signed number of row `e` is `i` and the columns agree:
    a number inside `[0, N)` is the landing row itself, and outside nothing lands while no row has that number. -/
theorem resultIdx_eq_some_iff {w : ℕ} (idx : IVec ⟨2, ![M, 1]⟩ w) (e : Fin M) (k' : Fin C) (i : Fin N) (k : Fin C) :
    (⟨[1], [0], [0], 1, wf⟩ : ScatterDims ⟨2, ![N, C]⟩ ⟨2, ![M, 1]⟩ ⟨2, ![M, C]⟩).resultIdx? (ix2 e k') idx
        = some (ix2 i k)
      ↔ (idx (ix2 e (0 : Fin 1))).toInt = (i.val : ℤ) ∧ k' = k := by
  have s0 := start_0 wf idx e k'
  have s1 := start_1 wf idx e k'
  have w0 := window_0 wf e k'
  have w1 := window_1 wf e k'
  have hN : (⟨2, ![N, C]⟩ : Shape).size (0 : Fin 2) = N := rfl
  have hC : (⟨2, ![N, C]⟩ : Shape).size (1 : Fin 2) = C := rfl
  have hi := i.isLt
  have hk := k.isLt
  have hk' := k'.isLt
  unfold ScatterDims.resultIdx?
  split
  · rename_i h
    rw [Option.some.injEq]
    have h0 := h (0 : Fin 2)
    have h1 := h (1 : Fin 2)
    constructor
    · intro eq
      have e0 : (((⟨[1], [0], [0], 1, wf⟩ : ScatterDims ⟨2, ![N, C]⟩ ⟨2, ![M, 1]⟩ ⟨2, ![M, C]⟩).start (ix2 e k') idx
          (0 : Fin 2) + ((⟨[1], [0], [0], 1, wf⟩ : ScatterDims ⟨2, ![N, C]⟩ ⟨2, ![M, 1]⟩ ⟨2, ![M, C]⟩).window
          (ix2 e k') (0 : Fin 2) : ℤ)).toNat : ℕ) = i.val := congrArg (fun f => (f (0 : Fin 2)).val) eq
      have e1 : (((⟨[1], [0], [0], 1, wf⟩ : ScatterDims ⟨2, ![N, C]⟩ ⟨2, ![M, 1]⟩ ⟨2, ![M, C]⟩).start (ix2 e k') idx
          (1 : Fin 2) + ((⟨[1], [0], [0], 1, wf⟩ : ScatterDims ⟨2, ![N, C]⟩ ⟨2, ![M, 1]⟩ ⟨2, ![M, C]⟩).window
          (ix2 e k') (1 : Fin 2) : ℤ)).toNat : ℕ) = k.val := congrArg (fun f => (f (1 : Fin 2)).val) eq
      refine ⟨by omega, Fin.ext (by omega)⟩
    · rintro ⟨hr, rfl⟩
      funext a
      refine Fin.ext ?_
      match a with
      | ⟨0, _⟩ =>
        show ((⟨[1], [0], [0], 1, wf⟩ : ScatterDims ⟨2, ![N, C]⟩ ⟨2, ![M, 1]⟩ ⟨2, ![M, C]⟩).start (ix2 e k') idx
          (0 : Fin 2) + ((⟨[1], [0], [0], 1, wf⟩ : ScatterDims ⟨2, ![N, C]⟩ ⟨2, ![M, 1]⟩ ⟨2, ![M, C]⟩).window
          (ix2 e k') (0 : Fin 2) : ℤ)).toNat = i.val
        omega
      | ⟨1, _⟩ =>
        show ((⟨[1], [0], [0], 1, wf⟩ : ScatterDims ⟨2, ![N, C]⟩ ⟨2, ![M, 1]⟩ ⟨2, ![M, C]⟩).start (ix2 e k') idx
          (1 : Fin 2) + ((⟨[1], [0], [0], 1, wf⟩ : ScatterDims ⟨2, ![N, C]⟩ ⟨2, ![M, 1]⟩ ⟨2, ![M, C]⟩).window
          (ix2 e k') (1 : Fin 2) : ℤ)).toNat = k'.val
        omega
  · rename_i h
    constructor
    · intro eq; cases eq
    · rintro ⟨hr, rfl⟩
      exfalso
      refine h (Fin.forall_fin_two.2 ⟨?_, ?_⟩)
      · constructor <;> omega
      · constructor <;> omega

end

/-- THE ROW SCATTER-ADD READ AT `(i, k)`: the table's entry plus the sum of the updates' column `k` over the rows
    whose number, read signed, is `i`. The scatter's sum runs over all update entries that land on `(i, k)`; entry
    `(e, k')` lands there exactly when row `e` has number `i` and `k' = k`, so the sum over `k'` keeps one term. -/
theorem scatterAdd_rows_apply {N C M w : ℕ}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (i : Fin N) (k : Fin C) :
    Host.scatterAdd (F := Ideal) (⟨[1], [0], [0], 1, wf⟩ : ScatterDims ⟨2, ![N, C]⟩ ⟨2, ![M, 1]⟩ ⟨2, ![M, C]⟩)
        x idx upd (ix2 i k)
      = x (ix2 i k) + ∑ e : Fin M, if (idx (ix2 e (0 : Fin 1))).toInt = (i.val : ℤ) then upd (ix2 e k) else 0 := by
  show x (ix2 i k) + ∑ j ∈ Finset.univ.filter (fun j =>
      (⟨[1], [0], [0], 1, wf⟩ : ScatterDims ⟨2, ![N, C]⟩ ⟨2, ![M, 1]⟩ ⟨2, ![M, C]⟩).resultIdx? j idx = some (ix2 i k)),
      upd j = _
  congr 1
  rw [Finset.sum_filter, sum_idx2]
  refine Finset.sum_congr rfl (fun e _ => ?_)
  refine (Finset.sum_congr rfl (fun k' _ => if_congr (resultIdx_eq_some_iff wf idx e k' i k) rfl rfl)).trans ?_
  by_cases h : (idx (ix2 e (0 : Fin 1))).toInt = (i.val : ℤ)
  · rw [if_pos h]
    simp only [h, true_and]
    exact (Finset.sum_ite_eq' Finset.univ k _).trans (if_pos (Finset.mem_univ k))
  · rw [if_neg h]
    simp only [h, false_and, if_false, Finset.sum_const_zero]

end Idealize.ShloMosaic.RowScatterAdd

end
-- ==== Proof.LibVecScatterAdd.lean ====
/-
  A one-axis scatter-add read at an entry, at any extents and index width.

  What `z.at[idx].add(u)` of a vector `z : [N]` at a vector of positions kept as a column `idx : [M, 1]` and
  values `u : [M]` is: a scatter with no update window axis, inserted window axis `0`, the scatter map `[0]`
  and the index vector on axis `1`, its body an exact sum. Value `e` of the updates is added to the entry of the
  vector whose position is `idx[e, 0]` read as a signed integer; a value whose position is not in `[0, N)` is
  dropped. Read at `i` the result is the vector's entry plus the sum of `u[e]` over the `e` whose position is `i`.
-/
import Idealize.ShloMosaic.PureOps.Contract
import Idealize.ShloMosaic.PureOps.Ideal
import Idealize.ShloMosaic.Lib.ValueIdx

noncomputable section

namespace Idealize.ShloMosaic.VecScatterAdd

open Idealize.ShloMosaic Idealize.ShloMosaic.ValueIdx

/-- A rank-1 index set is its one coordinate range … -/
def idxEquiv1 {n : ℕ} : (⟨1, ![n]⟩ : Shape).Idx ≃ Fin n where
  toFun j := j 0
  invFun a := ix1 a
  left_inv j := (eq_ix1 j).symm
  right_inv _ := rfl

/-- … so a sum over it is the sum over the coordinate. -/
theorem sum_idx1 {A : Type*} [AddCommMonoid A] {n : ℕ} (f : (⟨1, ![n]⟩ : Shape).Idx → A) :
    ∑ j, f j = ∑ a : Fin n, f (ix1 a) := by
  rw [← Equiv.sum_comp (idxEquiv1 (n := n)).symm f]
  rfl

section
variable {N M : ℕ} (wf : ScatterDims.WF ⟨1, ![N]⟩ ⟨2, ![M, 1]⟩ ⟨1, ![M]⟩ [] [0] [0] 1)

/-- Where update index `e` reads its one start component: row `e` of the index column. -/
theorem siIdx_eq (e : Fin M) (c : Fin 1) :
    (⟨[], [0], [0], 1, wf⟩ : ScatterDims ⟨1, ![N]⟩ ⟨2, ![M, 1]⟩ ⟨1, ![M]⟩).siIdx (ix1 e) c
      = ix2 e (0 : Fin 1) := by
  funext b
  refine Fin.ext ?_
  match b with
  | ⟨0, _⟩ => rfl
  | ⟨1, _⟩ =>
    show c.val = 0
    omega

/-- On the one axis the window starts at the position of value `e`, read signed. -/
theorem start_0 {w : ℕ} (idx : IVec ⟨2, ![M, 1]⟩ w) (e : Fin M) :
    (⟨[], [0], [0], 1, wf⟩ : ScatterDims ⟨1, ![N]⟩ ⟨2, ![M, 1]⟩ ⟨1, ![M]⟩).start (ix1 e) idx (0 : Fin 1)
      = (idx (ix2 e (0 : Fin 1))).toInt := by
  have ha : (0 : Fin 1) ∈ ([0] : List (Fin 1)) := List.mem_singleton.2 rfl
  unfold ScatterDims.start
  rw [dif_pos ha, siIdx_eq]

/-- The one axis is inserted, so the window coordinate on it is zero. -/
theorem window_0 (e : Fin M) :
    (⟨[], [0], [0], 1, wf⟩ : ScatterDims ⟨1, ![N]⟩ ⟨2, ![M, 1]⟩ ⟨1, ![M]⟩).window (ix1 e) (0 : Fin 1)
      = 0 := by
  unfold ScatterDims.window
  rw [dif_neg]
  simp [ScatterDims.sKept, Shape.kept]

/-- Update `e` lands at entry `i` exactly when its signed position is `i`: a position inside `[0, N)` is the
    landing entry itself, and outside nothing lands while no entry has that position. -/
theorem resultIdx_eq_some_iff {w : ℕ} (idx : IVec ⟨2, ![M, 1]⟩ w) (e : Fin M) (i : Fin N) :
    (⟨[], [0], [0], 1, wf⟩ : ScatterDims ⟨1, ![N]⟩ ⟨2, ![M, 1]⟩ ⟨1, ![M]⟩).resultIdx? (ix1 e) idx
        = some (ix1 i)
      ↔ (idx (ix2 e (0 : Fin 1))).toInt = (i.val : ℤ) := by
  have s0 := start_0 wf idx e
  have w0 := window_0 wf e
  have hN : (⟨1, ![N]⟩ : Shape).size (0 : Fin 1) = N := rfl
  have hi := i.isLt
  unfold ScatterDims.resultIdx?
  split
  · rename_i h
    rw [Option.some.injEq]
    have h0 := h (0 : Fin 1)
    constructor
    · intro eq
      have e0 : (((⟨[], [0], [0], 1, wf⟩ : ScatterDims ⟨1, ![N]⟩ ⟨2, ![M, 1]⟩ ⟨1, ![M]⟩).start (ix1 e) idx
          (0 : Fin 1) + ((⟨[], [0], [0], 1, wf⟩ : ScatterDims ⟨1, ![N]⟩ ⟨2, ![M, 1]⟩ ⟨1, ![M]⟩).window
          (ix1 e) (0 : Fin 1) : ℤ)).toNat : ℕ) = i.val := congrArg (fun f => (f (0 : Fin 1)).val) eq
      omega
    · intro hr
      funext a
      refine Fin.ext ?_
      match a with
      | ⟨0, _⟩ =>
        show ((⟨[], [0], [0], 1, wf⟩ : ScatterDims ⟨1, ![N]⟩ ⟨2, ![M, 1]⟩ ⟨1, ![M]⟩).start (ix1 e) idx
          (0 : Fin 1) + ((⟨[], [0], [0], 1, wf⟩ : ScatterDims ⟨1, ![N]⟩ ⟨2, ![M, 1]⟩ ⟨1, ![M]⟩).window
          (ix1 e) (0 : Fin 1) : ℤ)).toNat = i.val
        omega
  · rename_i h
    constructor
    · intro eq; cases eq
    · intro hr
      exfalso
      refine h (fun a => ?_)
      match a with
      | ⟨0, _⟩ =>
        show 0 ≤ (⟨[], [0], [0], 1, wf⟩ : ScatterDims ⟨1, ![N]⟩ ⟨2, ![M, 1]⟩ ⟨1, ![M]⟩).start (ix1 e) idx
            (0 : Fin 1) + ((⟨[], [0], [0], 1, wf⟩ : ScatterDims ⟨1, ![N]⟩ ⟨2, ![M, 1]⟩ ⟨1, ![M]⟩).window
            (ix1 e) (0 : Fin 1) : ℤ) ∧
          (⟨[], [0], [0], 1, wf⟩ : ScatterDims ⟨1, ![N]⟩ ⟨2, ![M, 1]⟩ ⟨1, ![M]⟩).start (ix1 e) idx
            (0 : Fin 1) + ((⟨[], [0], [0], 1, wf⟩ : ScatterDims ⟨1, ![N]⟩ ⟨2, ![M, 1]⟩ ⟨1, ![M]⟩).window
            (ix1 e) (0 : Fin 1) : ℤ) < ((⟨1, ![N]⟩ : Shape).size (0 : Fin 1) : ℤ)
        constructor <;> omega

end

/-- THE ONE-AXIS SCATTER-ADD READ AT `i`: the vector's entry plus the sum of the updates over the values whose
    position, read signed, is `i`. The scatter's sum runs over all update entries that land on `i`; entry `e`
    lands there exactly when its position is `i`. -/
theorem scatterAdd_vec_apply {N M w : ℕ} (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (i : Fin N) :
    Host.scatterAdd (F := Ideal) (⟨[], [0], [0], 1, wf⟩ : ScatterDims ⟨1, ![N]⟩ ⟨2, ![M, 1]⟩ ⟨1, ![M]⟩) x idx upd (ix1 i)
      = x (ix1 i) + ∑ e : Fin M, if (idx (ix2 e (0 : Fin 1))).toInt = (i.val : ℤ) then upd (ix1 e) else 0 := by
  show x (ix1 i) + ∑ j ∈ Finset.univ.filter (fun j =>
      (⟨[], [0], [0], 1, wf⟩ : ScatterDims ⟨1, ![N]⟩ ⟨2, ![M, 1]⟩ ⟨1, ![M]⟩).resultIdx? j idx = some (ix1 i)),
      upd j = _
  congr 1
  rw [Finset.sum_filter, sum_idx1]
  exact Finset.sum_congr rfl (fun e _ => if_congr (resultIdx_eq_some_iff wf idx e i) rfl rfl)

end Idealize.ShloMosaic.VecScatterAdd

end
-- ==== Proof.RefValue.lean ====
/-
  The reference program's result, read entry by entry, is the specification's "embedding first" array: the rows of
  `X · W + b` summed per class by the row scatter-add, divided by the class's count (the one-axis scatter-add of
  ones) raised to at least one.
-/
import proofs.«407838_j70454643524168_3_alg».proof.Proof.Gen.ReferenceIdeal.Read
import proofs.«407838_j70454643524168_3_alg».proof.Proof.Spec
import proofs.«407838_j70454643524168_3_alg».proof.Proof.LibRowScatterAdd
import proofs.«407838_j70454643524168_3_alg».proof.Proof.LibVecScatterAdd

noncomputable section

namespace Cert.ReferenceIdeal.RefValue

open Cert.ReferenceIdeal Cert.ReferenceIdeal.Gen Idealize.ShloMosaic Idealize.ShloMosaic.ValueIdx

/-- The word `0x3F800000` is the real number one. -/
theorem ofBits_one_f32 : Ideal.ofBits .f32 0x3F800000#32 = 1 := by
  simp [Ideal.ofBits, Ideal.ieee, -EReal.coe_mul]; norm_num

/-- The table the row scatter starts from is zero everywhere. -/
theorem zero_table (i : S64x64.Idx) : Read.val_main_v4 (F := Ideal) i = (0 : EReal) := by
  rw [Read.val_main_v4_apply, Read.val_main_cst_apply]
  exact Ideal.ofBits_zero_f32

/-- The vector the count scatter starts from is zero everywhere. -/
theorem zero_vec (i : S64.Idx) : Read.val_main_v8 (F := Ideal) i = (0 : EReal) := by
  rw [Read.val_main_v8_apply, Read.val_main_cst_1_apply]
  exact Ideal.ofBits_zero_f32

/-- The count scatter's updates are one everywhere. -/
theorem ones_vec (i : S1000000.Idx) : Read.val_main_v7 (F := Ideal) i = (1 : EReal) := by
  rw [Read.val_main_v7_apply, Read.val_main_cst_0_apply]
  exact ofBits_one_f32

/-- The floor under the count is one everywhere. -/
theorem ones_floor (i : S64.Idx) : Read.val_main_v11 (F := Ideal) i = (1 : EReal) := by
  rw [Read.val_main_v11_apply, Read.val_main_cst_2_apply]
  exact ofBits_one_f32

/-- The row scatter's index column at `(n, 0)` is the label of row `n`. -/
theorem lab_col (lab : IVec Cert.Proto.SL 32) (n : Fin 1000000) :
    Read.val_main_v5 (F := Ideal) lab (ix2 n (0 : Fin 1)) = lab (ix1 n) := by
  rw [Read.val_main_v5_apply]
  exact congrArg lab (funext fun a => by match a with | ⟨0, _⟩ => rfl)

/-- The count scatter's index column at `(n, 0)` is the label of row `n`. -/
theorem lab_col' (lab : IVec Cert.Proto.SL 32) (n : Fin 1000000) :
    Read.val_main_v9 (F := Ideal) lab (ix2 n (0 : Fin 1)) = lab (ix1 n) := by
  rw [Read.val_main_v9_apply]
  exact congrArg lab (funext fun a => by match a with | ⟨0, _⟩ => rfl)

/-- The embedding's entry `(n, e)`: row `n` of `X` against column `e` of `W`, plus `b[e]`. -/
theorem emb_apply (X : FVec Ideal Cert.Proto.SX .f32) (W : FVec Ideal Cert.Proto.SW .f32)
    (b : FVec Ideal Cert.Proto.SB .f32) (n : Fin 1000000) (e : Fin 64) :
    Read.val_main_v3 (F := Ideal) X W b (ix2 n e)
      = (∑ d : Fin 128, X (ix2 n d) * W (ix2 d e)) + b (ix1 e) := by
  have hl : ∀ k : Fin 128, Read.lidx_main_v0 (ix2 n e) k = ix2 n k := fun k =>
    funext fun a => Fin.ext (by match a with | ⟨0, _⟩ => rfl | ⟨1, _⟩ => rfl)
  have hr : ∀ k : Fin 128, Read.ridx_main_v0 (ix2 n e) k = ix2 k e := fun k =>
    funext fun a => Fin.ext (by match a with | ⟨0, _⟩ => rfl | ⟨1, _⟩ => rfl)
  have hb : Read.idx_main_v1 (Read.idx_main_v2 (ix2 n e)) = ix1 e :=
    funext fun a => Fin.ext (by match a with | ⟨0, _⟩ => rfl)
  rw [Read.val_main_v3_apply, Read.val_main_v0_apply, Read.val_main_v2_apply, Read.val_main_v1_apply, hb]
  show (∑ k : Fin 128, X (Read.lidx_main_v0 (ix2 n e) k) * W (Read.ridx_main_v0 (ix2 n e) k)) + b (ix1 e) = _
  congr 1
  exact Finset.sum_congr rfl fun k _ => by rw [hl, hr]

/-- The per-class sums of the embedding: entry `(c, e)` of the row scatter is the sum, over the rows of class `c`,
    of the embedding's column `e`. -/
theorem seg_apply (X : FVec Ideal Cert.Proto.SX .f32) (lab : IVec Cert.Proto.SL 32) (W : FVec Ideal Cert.Proto.SW .f32)
    (b : FVec Ideal Cert.Proto.SB .f32) (c e : Fin 64) :
    Read.val_main_v6 (F := Ideal) X lab W b (ix2 c e)
      = ∑ n : Fin 1000000, if (lab (ix1 n)).toInt = (c.val : ℤ)
          then (∑ d : Fin 128, X (ix2 n d) * W (ix2 d e)) + b (ix1 e) else 0 := by
  unfold Read.val_main_v6
  refine (RowScatterAdd.scatterAdd_rows_apply (N := 64) (C := 64) (M := 1000000)
    Facts₀.scatter_S64x64_S1000000x1_S1000000x64_1_0_0_1_wf _ _ _ c e).trans ?_
  rw [zero_table, zero_add]
  refine Finset.sum_congr rfl fun n _ => ?_
  rw [lab_col, emb_apply]

/-- The per-class counts: entry `c` of the one-axis scatter of ones is the number of rows of class `c`. -/
theorem cnt_apply (lab : IVec Cert.Proto.SL 32) (c : Fin 64) :
    Read.val_main_v10 (F := Ideal) lab (ix1 c) = Cert.Proto.classCount lab c.val := by
  unfold Read.val_main_v10
  refine (VecScatterAdd.scatterAdd_vec_apply (N := 64) (M := 1000000)
    Facts₀.scatter_S64_S1000000x1_S1000000_n_0_0_1_wf _ _ _ c).trans ?_
  rw [zero_vec, zero_add]
  unfold Cert.Proto.classCount
  refine Finset.sum_congr rfl fun n _ => ?_
  rw [lab_col', ones_vec]

/-- The divisor at `(c, e)`: the count of class `c`, raised to at least one. -/
theorem den_apply (lab : IVec Cert.Proto.SL 32) (c e : Fin 64) :
    Read.val_main_v14 (F := Ideal) lab (ix2 c e) = max (Cert.Proto.classCount lab c.val) 1 := by
  have hi : Read.idx_main_v13 (Read.idx_main_v14 (ix2 c e)) = ix1 c :=
    funext fun a => Fin.ext (by match a with | ⟨0, _⟩ => rfl)
  rw [Read.val_main_v14_apply, Read.val_main_v13_apply, hi, Read.val_main_v12_apply, cnt_apply, ones_floor]
  rfl

/-- THE REFERENCE'S RESULT is the "embedding first" array of the specification. -/
theorem ref_eq (X : FVec Ideal Cert.Proto.SX .f32) (lab : IVec Cert.Proto.SL 32) (W : FVec Ideal Cert.Proto.SW .f32)
    (b : FVec Ideal Cert.Proto.SB .f32) :
    Cert.ReferenceIdeal.Read.val_main_v15 (F := Ideal) X lab W b = Cert.Proto.resultEmbedded X lab W b := by
  funext i
  obtain ⟨c, e, rfl⟩ : ∃ c e : Fin 64, i = ix2 c e := ⟨i 0, i 1, eq_ix2 i⟩
  rw [Read.val_main_v15_apply, seg_apply, den_apply, Cert.Proto.resultEmbedded_apply]
  rfl

end Cert.ReferenceIdeal.RefValue

end
-- ==== Proof.KernelPieces.lean ====
/-
  What one grid point's body leaves behind, case by case, as values.

  The body at a point adds the block's one-hot product to the row-sum accumulator and the one-hot row counts to the
  count accumulator. At the first point of a run of fifty (case A) the accumulators are zeroed first, so they end at the
  update of the zero tables; at a middle point (case B) they end at the update of what the point before left; at the
  last point (case C) likewise, and the two output blocks receive the accumulators just written, recast with a
  leading unit axis. Each lemma reads the pieces the body's run stored back as the payload term that was stored:
  one covering store per buffer (two in case A, the later covering the earlier), every load reading a whole buffer.
-/
import proofs.«407838_j70454643524168_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The zero offset, twice, as a function. -/
theorem hz2 : (![0, 0] : Fin 2 → Nat) = fun _ => 0 := funext fun a => by fin_cases a <;> rfl
/-- The zero offset, three times, as a function. -/
theorem hz3 : (![0, 0, 0] : Fin 3 → Nat) = fun _ => 0 := funext fun a => by fin_cases a <;> rfl

theorem sout_B_0 (c : Dev nD) (i : grid0.Coords) (a2 : Memref sig .tc .vmem S10000x128 .f32) (h2 : a2.IsWhole) (a3 : Memref sig .tc .vmem S1x1x10000 .i32) (h3 : a3.IsWhole) (a4 : Memref sig .tc .vmem S1x128x128 .f32) (h4 : a4.IsWhole) (a5 : Memref sig .tc .vmem S1x128x1 .f32) (h5 : a5.IsWhole) (a6 : Memref sig .tc .vmem S128x128 .f32) (h6 : a6.IsWhole) (a7 : Memref sig .tc .vmem S128x1 .f32) (h7 : a7.IsWhole) (hc0 : ¬cond0_0 i) (hc1 : ¬cond0_1 i)
    (x0 : Vec F S10000x128 .f32) (x1 : Vec F S1x1x10000 .i32) (xs0 : Vec F S128x128 .f32) (xs1 : Vec F S128x1 .f32) :
    sout0_B_0 c i a2 h2 a3 h3 a4 h4 a5 h5 a6 h6 a7 h7 hc0 hc1 x0 x1 xs0 xs1 = k0_pay4 x0 x1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S10000x128) hz2, View.ld_unit_zero (S := S1x1x10000) hz3, View.ld_unit_zero (S := S128x128) hz2, View.ld_unit_zero (S := S128x1) hz2]

theorem sout_B_1 (c : Dev nD) (i : grid0.Coords) (a2 : Memref sig .tc .vmem S10000x128 .f32) (h2 : a2.IsWhole) (a3 : Memref sig .tc .vmem S1x1x10000 .i32) (h3 : a3.IsWhole) (a4 : Memref sig .tc .vmem S1x128x128 .f32) (h4 : a4.IsWhole) (a5 : Memref sig .tc .vmem S1x128x1 .f32) (h5 : a5.IsWhole) (a6 : Memref sig .tc .vmem S128x128 .f32) (h6 : a6.IsWhole) (a7 : Memref sig .tc .vmem S128x1 .f32) (h7 : a7.IsWhole) (hc0 : ¬cond0_0 i) (hc1 : ¬cond0_1 i)
    (x0 : Vec F S10000x128 .f32) (x1 : Vec F S1x1x10000 .i32) (xs0 : Vec F S128x128 .f32) (xs1 : Vec F S128x1 .f32) :
    sout0_B_1 c i a2 h2 a3 h3 a4 h4 a5 h5 a6 h6 a7 h7 hc0 hc1 x0 x1 xs0 xs1 = k0_pay5 x1 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S10000x128) hz2, View.ld_unit_zero (S := S1x1x10000) hz3, View.ld_unit_zero (S := S128x128) hz2, View.ld_unit_zero (S := S128x1) hz2]

theorem sout_C_0 (c : Dev nD) (i : grid0.Coords) (a2 : Memref sig .tc .vmem S10000x128 .f32) (h2 : a2.IsWhole) (a3 : Memref sig .tc .vmem S1x1x10000 .i32) (h3 : a3.IsWhole) (a4 : Memref sig .tc .vmem S1x128x128 .f32) (h4 : a4.IsWhole) (a5 : Memref sig .tc .vmem S1x128x1 .f32) (h5 : a5.IsWhole) (a6 : Memref sig .tc .vmem S128x128 .f32) (h6 : a6.IsWhole) (a7 : Memref sig .tc .vmem S128x1 .f32) (h7 : a7.IsWhole) (hc0 : ¬cond0_0 i) (hc1 : cond0_1 i)
    (x0 : Vec F S10000x128 .f32) (x1 : Vec F S1x1x10000 .i32) (xs0 : Vec F S128x128 .f32) (xs1 : Vec F S128x1 .f32) :
    sout0_C_0 c i a2 h2 a3 h3 a4 h4 a5 h5 a6 h6 a7 h7 hc0 hc1 x0 x1 xs0 xs1 = k0_pay4 x0 x1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S10000x128) hz2, View.ld_unit_zero (S := S1x1x10000) hz3, View.ld_unit_zero (S := S128x128) hz2, View.ld_unit_zero (S := S128x1) hz2]

theorem sout_C_1 (c : Dev nD) (i : grid0.Coords) (a2 : Memref sig .tc .vmem S10000x128 .f32) (h2 : a2.IsWhole) (a3 : Memref sig .tc .vmem S1x1x10000 .i32) (h3 : a3.IsWhole) (a4 : Memref sig .tc .vmem S1x128x128 .f32) (h4 : a4.IsWhole) (a5 : Memref sig .tc .vmem S1x128x1 .f32) (h5 : a5.IsWhole) (a6 : Memref sig .tc .vmem S128x128 .f32) (h6 : a6.IsWhole) (a7 : Memref sig .tc .vmem S128x1 .f32) (h7 : a7.IsWhole) (hc0 : ¬cond0_0 i) (hc1 : cond0_1 i)
    (x0 : Vec F S10000x128 .f32) (x1 : Vec F S1x1x10000 .i32) (xs0 : Vec F S128x128 .f32) (xs1 : Vec F S128x1 .f32) :
    sout0_C_1 c i a2 h2 a3 h3 a4 h4 a5 h5 a6 h6 a7 h7 hc0 hc1 x0 x1 xs0 xs1 = k0_pay5 x1 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S10000x128) hz2, View.ld_unit_zero (S := S1x1x10000) hz3, View.ld_unit_zero (S := S128x128) hz2, View.ld_unit_zero (S := S128x1) hz2]

theorem out_C_2 (c : Dev nD) (i : grid0.Coords) (a2 : Memref sig .tc .vmem S10000x128 .f32) (h2 : a2.IsWhole) (a3 : Memref sig .tc .vmem S1x1x10000 .i32) (h3 : a3.IsWhole) (a4 : Memref sig .tc .vmem S1x128x128 .f32) (h4 : a4.IsWhole) (a5 : Memref sig .tc .vmem S1x128x1 .f32) (h5 : a5.IsWhole) (a6 : Memref sig .tc .vmem S128x128 .f32) (h6 : a6.IsWhole) (a7 : Memref sig .tc .vmem S128x1 .f32) (h7 : a7.IsWhole) (hc0 : ¬cond0_0 i) (hc1 : cond0_1 i)
    (x0 : Vec F S10000x128 .f32) (x1 : Vec F S1x1x10000 .i32) (xs0 : Vec F S128x128 .f32) (xs1 : Vec F S128x1 .f32) :
    out0_C_2 c i a2 h2 a3 h3 a4 h4 a5 h5 a6 h6 a7 h7 hc0 hc1 x0 x1 xs0 xs1 = k0_pay6 (k0_pay4 x0 x1 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h2.read_unread, h3.read_unread, h6.read_unread, h7.read_unread, View.ld_unit_zero (S := S10000x128) hz2, View.ld_unit_zero (S := S1x1x10000) hz3, View.ld_unit_zero (S := S128x128) hz2, View.ld_unit_zero (S := S128x1) hz2, View.readCov_unit_zero (S := S128x128) _ hz2, View.readCov_unit_zero (S := S128x1) _ hz2]

theorem out_C_3 (c : Dev nD) (i : grid0.Coords) (a2 : Memref sig .tc .vmem S10000x128 .f32) (h2 : a2.IsWhole) (a3 : Memref sig .tc .vmem S1x1x10000 .i32) (h3 : a3.IsWhole) (a4 : Memref sig .tc .vmem S1x128x128 .f32) (h4 : a4.IsWhole) (a5 : Memref sig .tc .vmem S1x128x1 .f32) (h5 : a5.IsWhole) (a6 : Memref sig .tc .vmem S128x128 .f32) (h6 : a6.IsWhole) (a7 : Memref sig .tc .vmem S128x1 .f32) (h7 : a7.IsWhole) (hc0 : ¬cond0_0 i) (hc1 : cond0_1 i)
    (x0 : Vec F S10000x128 .f32) (x1 : Vec F S1x1x10000 .i32) (xs0 : Vec F S128x128 .f32) (xs1 : Vec F S128x1 .f32) :
    out0_C_3 c i a2 h2 a3 h3 a4 h4 a5 h5 a6 h6 a7 h7 hc0 hc1 x0 x1 xs0 xs1 = k0_pay7 (k0_pay5 x1 xs1) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h2.read_unread, h3.read_unread, h6.read_unread, h7.read_unread, View.ld_unit_zero (S := S10000x128) hz2, View.ld_unit_zero (S := S1x1x10000) hz3, View.ld_unit_zero (S := S128x128) hz2, View.ld_unit_zero (S := S128x1) hz2, View.readCov_unit_zero (S := S128x128) _ hz2, View.readCov_unit_zero (S := S128x1) _ hz2]

theorem sout_A_0 (c : Dev nD) (i : grid0.Coords) (a2 : Memref sig .tc .vmem S10000x128 .f32) (h2 : a2.IsWhole) (a3 : Memref sig .tc .vmem S1x1x10000 .i32) (h3 : a3.IsWhole) (a4 : Memref sig .tc .vmem S1x128x128 .f32) (h4 : a4.IsWhole) (a5 : Memref sig .tc .vmem S1x128x1 .f32) (h5 : a5.IsWhole) (a6 : Memref sig .tc .vmem S128x128 .f32) (h6 : a6.IsWhole) (a7 : Memref sig .tc .vmem S128x1 .f32) (h7 : a7.IsWhole) (hc0 : cond0_0 i) (hc1 : ¬cond0_1 i)
    (x0 : Vec F S10000x128 .f32) (x1 : Vec F S1x1x10000 .i32) :
    sout0_A_0 c i a2 h2 a3 h3 a4 h4 a5 h5 a6 h6 a7 h7 hc0 hc1 x0 x1 = k0_pay4 x0 x1 (k0_pay1 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S128x128) hz2, View.readCov_unit_zero (S := S128x128) _ hz2]
  simp only [View.readAt_eq_ld, h2.read_unread, h3.read_unread, h6.read_unread, h7.read_unread, View.ld_unit_zero (S := S10000x128) hz2, View.ld_unit_zero (S := S1x1x10000) hz3, View.ld_unit_zero (S := S128x128) hz2, View.ld_unit_zero (S := S128x1) hz2, View.readCov_unit_zero (S := S128x128) _ hz2, View.readCov_unit_zero (S := S128x1) _ hz2]

theorem sout_A_1 (c : Dev nD) (i : grid0.Coords) (a2 : Memref sig .tc .vmem S10000x128 .f32) (h2 : a2.IsWhole) (a3 : Memref sig .tc .vmem S1x1x10000 .i32) (h3 : a3.IsWhole) (a4 : Memref sig .tc .vmem S1x128x128 .f32) (h4 : a4.IsWhole) (a5 : Memref sig .tc .vmem S1x128x1 .f32) (h5 : a5.IsWhole) (a6 : Memref sig .tc .vmem S128x128 .f32) (h6 : a6.IsWhole) (a7 : Memref sig .tc .vmem S128x1 .f32) (h7 : a7.IsWhole) (hc0 : cond0_0 i) (hc1 : ¬cond0_1 i)
    (x0 : Vec F S10000x128 .f32) (x1 : Vec F S1x1x10000 .i32) :
    sout0_A_1 c i a2 h2 a3 h3 a4 h4 a5 h5 a6 h6 a7 h7 hc0 hc1 x0 x1 = k0_pay5 x1 (k0_pay2 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S128x1) hz2, View.readCov_unit_zero (S := S128x1) _ hz2]
  simp only [View.readAt_eq_ld, h2.read_unread, h3.read_unread, h6.read_unread, h7.read_unread, View.ld_unit_zero (S := S10000x128) hz2, View.ld_unit_zero (S := S1x1x10000) hz3, View.ld_unit_zero (S := S128x128) hz2, View.ld_unit_zero (S := S128x1) hz2, View.readCov_unit_zero (S := S128x128) _ hz2, View.readCov_unit_zero (S := S128x1) _ hz2]

end Cert.KernelIdeal.Acc

end
-- ==== Proof.KernelAcc.lean ====
/-
  The two accumulators along the grid.

  The grid's hundred points run in two runs of fifty. After each point the row-sum accumulator and the count accumulator
  hold: at the first point of a run the update of the zero tables by the point's blocks; at every other point the
  update of what the point before left. At the last point of a run the two output blocks hold those accumulators,
  recast with a leading unit axis. Each statement selects the case of the point and reads the case's stored pieces
  (the case lemmas of the pieces module).
-/
import proofs.«407838_j70454643524168_3_alg».proof.Proof.Gen.KernelIdeal.Frame
import proofs.«407838_j70454643524168_3_alg».proof.Proof.KernelPieces
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

variable (m : (ℓ : Loc nD τ sig) → Buf (Elt F) ℓ)

/-- The block of rows and the block of labels the body reads at point `n`. -/
abbrev rowsAt (c : Dev nD) (n : ℕ) (h : n < cfg0.N) : Vec F S10000x128 .f32 := iblk m c 0 ⟨n, h⟩
abbrev labsAt (c : Dev nD) (n : ℕ) (h : n < cfg0.N) : Vec F S1x1x10000 .i32 := iblk m c 1 ⟨n, h⟩

/-- The row-sum accumulator and the count accumulator after point `n`. -/
def segAt (c : Dev nD) (n : ℕ) (h : n < cfg0.N) : Vec F S128x128 .f32 := (outsAt0 m c n h).2.2.1
def cntAt (c : Dev nD) (n : ℕ) (h : n < cfg0.N) : Vec F S128x1 .f32 := (outsAt0 m c n h).2.2.2

theorem segAt_reset (c : Dev nD) (n : ℕ) (h : n < cfg0.N) (h0 : n % 50 = 0) :
    segAt m c n h = k0_pay4 (rowsAt m c n h) (labsAt m c n h) (k0_pay1 (F := F)) := by
  have h1 : ¬(⟨n, h⟩ : Fin cfg0.N).val % 50 = 49 := by dsimp only; omega
  unfold segAt
  rw [outsAt0_A m c ⟨n, h⟩ h0 h1]
  dsimp only
  exact sout_A_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩)

theorem cntAt_reset (c : Dev nD) (n : ℕ) (h : n < cfg0.N) (h0 : n % 50 = 0) :
    cntAt m c n h = k0_pay5 (labsAt m c n h) (k0_pay2 (F := F)) := by
  have h1 : ¬(⟨n, h⟩ : Fin cfg0.N).val % 50 = 49 := by dsimp only; omega
  unfold cntAt
  rw [outsAt0_A m c ⟨n, h⟩ h0 h1]
  dsimp only
  exact sout_A_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩)

theorem segAt_step (c : Dev nD) (n : ℕ) (h : n + 1 < cfg0.N) (h0 : ¬(n + 1) % 50 = 0) :
    segAt m c (n + 1) h = k0_pay4 (rowsAt m c (n + 1) h) (labsAt m c (n + 1) h) (segAt m c n (Nat.lt_of_succ_lt h)) := by
  have h0' : ¬(⟨n + 1, h⟩ : Fin cfg0.N).val % 50 = 0 := h0
  unfold segAt
  by_cases h1 : (⟨n + 1, h⟩ : Fin cfg0.N).val % 50 = 49
  · rw [outsAt0_C m c ⟨n + 1, h⟩ h0' h1]
    dsimp only
    exact sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0' ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2
  · rw [outsAt0_B m c ⟨n + 1, h⟩ h0' h1]
    dsimp only
    exact sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0' ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2

theorem cntAt_step (c : Dev nD) (n : ℕ) (h : n + 1 < cfg0.N) (h0 : ¬(n + 1) % 50 = 0) :
    cntAt m c (n + 1) h = k0_pay5 (labsAt m c (n + 1) h) (cntAt m c n (Nat.lt_of_succ_lt h)) := by
  have h0' : ¬(⟨n + 1, h⟩ : Fin cfg0.N).val % 50 = 0 := h0
  unfold cntAt
  by_cases h1 : (⟨n + 1, h⟩ : Fin cfg0.N).val % 50 = 49
  · rw [outsAt0_C m c ⟨n + 1, h⟩ h0' h1]
    dsimp only
    exact sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0' ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2
  · rw [outsAt0_B m c ⟨n + 1, h⟩ h0' h1]
    dsimp only
    exact sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0' ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2

theorem out2_last (c : Dev nD) (t : Fin cfg0.N) (h1 : t.val % 50 = 49) :
    (outsAt0 m c t.val t.isLt).1 = k0_pay6 (segAt m c t.val t.isLt) := by
  have h0 : ¬t.val % 50 = 0 := by omega
  unfold segAt
  rw [outsAt0_C m c t h0 h1]
  dsimp only
  exact (out_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg k0_pay6 (sout_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

theorem out3_last (c : Dev nD) (t : Fin cfg0.N) (h1 : t.val % 50 = 49) :
    (outsAt0 m c t.val t.isLt).2.1 = k0_pay7 (cntAt m c t.val t.isLt) := by
  have h0 : ¬t.val % 50 = 0 := by omega
  unfold cntAt
  rw [outsAt0_C m c t h0 h1]
  dsimp only
  exact (out_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg k0_pay7 (sout_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

end Cert.KernelIdeal.Acc

end
-- ==== Proof.Payloads.lean ====
/-
  The values the kernel's body stores, read at an entry, over the extended reals.

  At one grid point the body holds a block of rows `x0 : [10000, 128]` and a block of labels `x1 : [1, 1, 10000]`. The
  one-hot table has entry `(c, t)` equal to one when label `t`, read as a signed integer, is `c` (the label word equals
  the word of `c < 128`), else zero. The row-sum update stores `s[c, d] + ∑ t, hot[c, t] · x0[t, d]` (a product into a
  zero accumulator, contracting `t`; rounding to bf16 is the identity here), the count update stores
  `s[c, 0] + ∑ t, hot[c, t]` (a sum over the lane axis recast as a column), the resets store zero, and the two copies to
  the outputs recast a table with a leading unit axis.
-/
import proofs.«407838_j70454643524168_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- the one-hot entry: 1 when label t of the block, read as a signed integer, is c, else 0 -/
def hot (x1 : IVec S1x1x10000 32) (c : Fin 128) (t : Fin 10000) : EReal :=
  if (x1 (ix3 (0 : Fin 1) (0 : Fin 1) t)).toInt = (c.val : ℤ) then 1 else 0

theorem pay1_apply (c d : Fin 128) : (k0_pay1 (F := Ideal)) (ix2 c d) = 0 := by
  unfold k0_pay1
  refine (congrFun (shapeCast_self _ _) _).trans ?_
  exact Ideal.ofBits_zero_f32

theorem pay2_apply (c : Fin 128) : (k0_pay2 (F := Ideal)) (ix2 c (0 : Fin 1)) = 0 := by
  unfold k0_pay2
  refine (congrFun (shapeCast_self _ _) _).trans ?_
  exact Ideal.ofBits_zero_f32

theorem pay6_apply (s : FVec Ideal S128x128 .f32) (c d : Fin 128) : k0_pay6 (F := Ideal) s (ix3 (0 : Fin 1) c d) = s (ix2 c d) := by
  unfold k0_pay6
  exact shapeCast_ab_1ab_apply s _ (0 : Fin 1) c d

theorem pay7_apply (s : FVec Ideal S128x1 .f32) (c : Fin 128) : k0_pay7 (F := Ideal) s (ix3 (0 : Fin 1) c (0 : Fin 1)) = s (ix2 c (0 : Fin 1)) := by
  unfold k0_pay7
  exact shapeCast_ab_1ab_apply s _ (0 : Fin 1) c (0 : Fin 1)

/-! ### The one-hot word -/

/-- A class number below 128, written as a 32-bit word, reads back signed as itself. -/
theorem toInt_ofNat_class (c : Fin 128) : (BitVec.ofNat 32 c.val).toInt = (c.val : ℤ) := by
  have e := BitVec.toInt_eq_toNat_cond (BitVec.ofNat 32 c.val)
  rw [BitVec.toNat_ofNat] at e
  have := c.isLt
  omega

/-- A label word is the word of class `c` exactly when its signed reading is `c`. -/
theorem word_eq_class_iff (w : BitVec 32) (c : Fin 128) : w = BitVec.ofNat 32 c.val ↔ w.toInt = (c.val : ℤ) :=
  ⟨fun h => h ▸ toInt_ofNat_class c, fun h => BitVec.eq_of_toInt_eq (h.trans (toInt_ofNat_class c).symm)⟩

/-- The comparison bit of a label word with a class word, widened to 32 bits and converted exactly, is the indicator. -/
theorem onehot_word (w : BitVec 32) (c : Fin 128) :
    FloatOps.sitofp (F := Ideal) .f32 ((IntOp.cmpi .eq w (BitVec.ofNat 32 c.val)).setWidth 32)
      = if w.toInt = (c.val : ℤ) then (1 : EReal) else 0 := by
  by_cases h : w = BitVec.ofNat 32 c.val
  · rw [if_pos ((word_eq_class_iff w c).1 h)]
    subst h
    show (((((IntOp.cmpi .eq (BitVec.ofNat 32 c.val) (BitVec.ofNat 32 c.val)).setWidth 32).toInt : ℤ) : ℝ) : EReal) = 1
    have e : IntOp.cmpi .eq (BitVec.ofNat 32 c.val) (BitVec.ofNat 32 c.val) = 1#1 := by
      simp [IntOp.cmpi]
    rw [e]
    norm_num
  · rw [if_neg (fun h' => h ((word_eq_class_iff w c).2 h'))]
    show (((((IntOp.cmpi .eq w (BitVec.ofNat 32 c.val)).setWidth 32).toInt : ℤ) : ℝ) : EReal) = 0
    have e : IntOp.cmpi .eq w (BitVec.ofNat 32 c.val) = 0#1 := by
      show BitVec.ofBool (w == BitVec.ofNat 32 c.val) = 0#1
      rw [beq_eq_false_iff_ne.2 h]
      rfl
    rw [e]
    norm_num

/-! ### The one-hot table at an index -/

theorem pay3_apply (x1 : IVec S1x1x10000 32) (c : Fin 128) (t : Fin 10000) :
    k0_pay3 (F := Ideal) x1 (ix2 c t) = hot x1 c t := by
  unfold k0_pay3 hot
  show FloatOps.sitofp (F := Ideal) .f32 ((IntOp.cmpi .eq
      (broadcastTo S128x10000 (shapeCast S1x10000 x1 shapeCasts_S1x1x10000_S1x10000) broadcasts_S1x10000_S128x10000 (ix2 c t))
      (iota .tc S128x10000 32 [0] iota_S128x10000_d0_w32 (ix2 c t))).setWidth 32) = _
  rw [broadcastTo_1b_ab_apply, shapeCast_1ab_ab_apply, iota_single_apply]
  exact onehot_word _ c

/-! ### The product of the one-hot table with the rows, at an index -/

theorem lhs_hotdot_0 (i : S128x128.Idx) (q : dot_S128x10000_S10000x128_S128x128_1_0_0_1_n_n.contr.Idx) :
    (dot_S128x10000_S10000x128_S128x128_1_0_0_1_n_n.lhsIdx i q 0).val = (i 0).val := by
  unfold DotDims.lhsIdx
  rw [dif_neg (show ¬(0 : Fin S128x10000.rank) ∈ dot_S128x10000_S10000x128_S128x128_1_0_0_1_n_n.lhsBatch by decide), dif_pos (show (0 : Fin S128x10000.rank) ∈ dot_S128x10000_S10000x128_S128x128_1_0_0_1_n_n.lhsNonContracting by decide)]
  rfl
theorem lhs_hotdot_1 (i : S128x128.Idx) (q : dot_S128x10000_S10000x128_S128x128_1_0_0_1_n_n.contr.Idx) :
    (dot_S128x10000_S10000x128_S128x128_1_0_0_1_n_n.lhsIdx i q 1).val = (q ⟨0, by decide⟩).val :=
  dot_S128x10000_S10000x128_S128x128_1_0_0_1_n_n.lhsIdx_val_of_single rfl i q
theorem rhs_hotdot_0 (i : S128x128.Idx) (q : dot_S128x10000_S10000x128_S128x128_1_0_0_1_n_n.contr.Idx) :
    (dot_S128x10000_S10000x128_S128x128_1_0_0_1_n_n.rhsIdx i q 0).val = (q ⟨0, by decide⟩).val :=
  dot_S128x10000_S10000x128_S128x128_1_0_0_1_n_n.rhsIdx_val_of_single rfl i q
theorem rhs_hotdot_1 (i : S128x128.Idx) (q : dot_S128x10000_S10000x128_S128x128_1_0_0_1_n_n.contr.Idx) :
    (dot_S128x10000_S10000x128_S128x128_1_0_0_1_n_n.rhsIdx i q 1).val = (i 1).val := by
  unfold DotDims.rhsIdx
  rw [dif_neg (show ¬(1 : Fin S10000x128.rank) ∈ dot_S128x10000_S10000x128_S128x128_1_0_0_1_n_n.rhsBatch by decide), dif_pos (show (1 : Fin S10000x128.rank) ∈ dot_S128x10000_S10000x128_S128x128_1_0_0_1_n_n.rhsNonContracting by decide)]
  rfl

/-- The product into the zero accumulator, at `(c, d)`: the sum over the contracted axis. -/
theorem hotdot_apply (A : FVec Ideal S128x10000 .bf16) (B : FVec Ideal S10000x128 .bf16) (c d : Fin 128) :
    matmul dot_S128x10000_S10000x128_S128x128_1_0_0_1_n_n none A B (constant (F := Ideal) S128x128 .f32 0x00000000#32) (ix2 c d)
      = ∑ t : Fin 10000, A (ix2 c t) * B (ix2 t d) := by
  refine (Ideal.matmul_constant_zero_apply dot_S128x10000_S10000x128_S128x128_1_0_0_1_n_n none A B (ix2 c d)).trans ?_
  rw [← Equiv.sum_comp (ValueIdx.contrEquiv1 dot_S128x10000_S10000x128_S128x128_1_0_0_1_n_n 10000 rfl rfl).symm]
  refine Finset.sum_congr rfl fun k _ => ?_
  have hk := ValueIdx.contrEquiv1_symm_val dot_S128x10000_S10000x128_S128x128_1_0_0_1_n_n 10000 rfl rfl k
  have el : dot_S128x10000_S10000x128_S128x128_1_0_0_1_n_n.lhsIdx (ix2 c d) ((ValueIdx.contrEquiv1 dot_S128x10000_S10000x128_S128x128_1_0_0_1_n_n 10000 rfl rfl).symm k) = ix2 c k := funext fun a => Fin.ext (by
    match a with
    | ⟨0, _⟩ => exact lhs_hotdot_0 _ _
    | ⟨1, _⟩ => exact (lhs_hotdot_1 _ _).trans hk)
  have er : dot_S128x10000_S10000x128_S128x128_1_0_0_1_n_n.rhsIdx (ix2 c d) ((ValueIdx.contrEquiv1 dot_S128x10000_S10000x128_S128x128_1_0_0_1_n_n 10000 rfl rfl).symm k) = ix2 k d := funext fun a => Fin.ext (by
    match a with
    | ⟨0, _⟩ => exact (rhs_hotdot_0 _ _).trans hk
    | ⟨1, _⟩ => exact rhs_hotdot_1 _ _)
  rw [el, er]

/-! ### The row sums of the one-hot table, at an index -/

/-- A sum along axis 1 of a `[128, 10000]` table, at row `c`. -/
theorem rowsum_apply (src : FVec Ideal S128x10000 .f32) (h : S128x10000.Reduces [1] S128) (hφ : FKind.Formats .f32)
    (hacc : (0x00000000#32 : BitVec 32) = FKind.add.neutral .f32 hφ) (c : Fin 128) :
    multiReduction (F := Ideal) .add [1] S128 src 0x00000000#32 h hφ hacc (ix1 c) = ∑ t : Fin 10000, src (ix2 c t) := by
  refine (Ideal.multiReduction_add_single src 0x00000000#32 h hφ hacc (ix1 c)).trans ?_
  refine Finset.sum_congr rfl fun t _ => congrArg src (funext fun a => Fin.ext ?_)
  match a with
  | ⟨0, _⟩ => rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### The two accumulating payloads -/

theorem pay4_apply (x0 : FVec Ideal S10000x128 .f32) (x1 : IVec S1x1x10000 32) (s : FVec Ideal S128x128 .f32) (c d : Fin 128) :
    k0_pay4 (F := Ideal) x0 x1 s (ix2 c d) = s (ix2 c d) + ∑ t : Fin 10000, hot x1 c t * x0 (ix2 t d) := by
  unfold k0_pay4
  refine (congrFun (shapeCast_self _ _) _).trans ?_
  refine (addf_apply _ _ _).trans ?_
  refine congrArg (s (ix2 c d) + ·) ?_
  refine (hotdot_apply _ _ c d).trans ?_
  refine Finset.sum_congr rfl fun t _ => ?_
  exact congrArg (· * x0 (ix2 t d)) (pay3_apply x1 c t)

theorem pay5_apply (x1 : IVec S1x1x10000 32) (s : FVec Ideal S128x1 .f32) (c : Fin 128) :
    k0_pay5 (F := Ideal) x1 s (ix2 c (0 : Fin 1)) = s (ix2 c (0 : Fin 1)) + ∑ t : Fin 10000, hot x1 c t := by
  unfold k0_pay5
  refine (congrFun (shapeCast_self _ _) _).trans ?_
  refine (addf_apply _ _ _).trans ?_
  refine congrArg (s (ix2 c (0 : Fin 1)) + ·) ?_
  refine (shapeCast_a_a1_apply _ _ c (0 : Fin 1)).trans ?_
  refine (rowsum_apply _ _ _ _ c).trans ?_
  exact Finset.sum_congr rfl fun t _ => pay3_apply x1 c t

end Cert.KernelIdeal.Body

end
-- ==== Proof.KernelFold.lean ====
/-
  The accumulators as sums, and the two result arrays after the region.

  Point `n` adds to the row-sum accumulator, at `(c, d)`, the sum over the block's rows `t` of (row `t` has class `c`) ·
  `x[t, d]`, and to the count accumulator, at `(c, 0)`, the number of the block's rows of class `c`. A run of fifty points
  starts from zero, so after point `n` an accumulator is the sum of the addends of the run's points up to `n` (the
  fold of a reset followed by steps, unrolled). The last point of run `p` copies the accumulators to block `p` of the
  result arrays, and those two blocks cover the arrays: the arrays end as the fifty-point sums.
-/
import proofs.«407838_j70454643524168_3_alg».proof.Proof.Gen.KernelIdeal.Frame
import proofs.«407838_j70454643524168_3_alg».proof.Proof.KernelAcc
import proofs.«407838_j70454643524168_3_alg».proof.Proof.Payloads
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

open Idealize.ShloMosaic.ValueIdx Cert.KernelIdeal.Body

variable (m : (ℓ : Loc nD τ sig) → Buf (Elt Ideal) ℓ)

/-- What point `n` adds to the row-sum accumulator at `(c, d)`: the block's rows of class `c`, coordinate `d`, summed. -/
def segAdd (c : Dev nD) (n : ℕ) (i : S128x128.Idx) : EReal :=
  if h : n < cfg0.N then ∑ t : Fin 10000, hot (labsAt m c n h) (i 0) t * rowsAt m c n h (ix2 t (i 1)) else 0

/-- What point `n` adds to the count accumulator at `(c, 0)`: the number of the block's rows of class `c`. -/
def cntAdd (c : Dev nD) (n : ℕ) (i : S128x1.Idx) : EReal :=
  if h : n < cfg0.N then ∑ t : Fin 10000, hot (labsAt m c n h) (i 0) t else 0

/-- The row-sum accumulator after point `n` is the sum of the addends of its run's points up to `n`. -/
theorem segAt_fold (c : Dev nD) (n : ℕ) (h : n < cfg0.N) (i : S128x128.Idx) :
    segAt m c n h i = ∑ s ∈ Finset.range (n % 50 + 1), segAdd m c (50 * (n / 50) + s) i := by
  have h' : 50 * (n / 50) + n % 50 < cfg0.N := by rw [Nat.div_add_mod]; exact h
  rw [Pipeline.eq_accAt_of_mod (segAt m c) 50
    (fun n h => k0_pay4 (rowsAt m c n h) (labsAt m c n h) (k0_pay1 (F := Ideal)))
    (fun n h acc => k0_pay4 (rowsAt m c n h) (labsAt m c n h) acc)
    (segAt_reset m c) (segAt_step m c) (by decide) n h h']
  refine (Pipeline.accAt_add_apply _ _ (fun _ => (0 : EReal)) (segAdd m c) (50 * (n / 50)) 49 ?_ ?_ (n % 50) (by omega) h' i).trans (zero_add _)
  · intro hb j
    obtain ⟨a, d, rfl⟩ : ∃ (a : Fin 128) (d : Fin 128), j = ix2 a d := ⟨j 0, j 1, eq_ix2 j⟩
    show k0_pay4 (F := Ideal) _ _ _ (ix2 a d) = 0 + segAdd m c _ (ix2 a d)
    rw [pay4_apply, pay1_apply]
    unfold segAdd
    rw [dif_pos hb]
  · intro k hk acc j _ _
    obtain ⟨a, d, rfl⟩ : ∃ (a : Fin 128) (d : Fin 128), j = ix2 a d := ⟨j 0, j 1, eq_ix2 j⟩
    show k0_pay4 (F := Ideal) _ _ _ (ix2 a d) = acc (ix2 a d) + segAdd m c _ (ix2 a d)
    rw [pay4_apply]
    unfold segAdd
    rw [dif_pos hk]

/-- The count accumulator after point `n` is the sum of the addends of its run's points up to `n`. -/
theorem cntAt_fold (c : Dev nD) (n : ℕ) (h : n < cfg0.N) (i : S128x1.Idx) :
    cntAt m c n h i = ∑ s ∈ Finset.range (n % 50 + 1), cntAdd m c (50 * (n / 50) + s) i := by
  have h' : 50 * (n / 50) + n % 50 < cfg0.N := by rw [Nat.div_add_mod]; exact h
  rw [Pipeline.eq_accAt_of_mod (cntAt m c) 50
    (fun n h => k0_pay5 (labsAt m c n h) (k0_pay2 (F := Ideal)))
    (fun n h acc => k0_pay5 (labsAt m c n h) acc)
    (cntAt_reset m c) (cntAt_step m c) (by decide) n h h']
  refine (Pipeline.accAt_add_apply _ _ (fun _ => (0 : EReal)) (cntAdd m c) (50 * (n / 50)) 49 ?_ ?_ (n % 50) (by omega) h' i).trans (zero_add _)
  · intro hb j
    obtain ⟨a, d, rfl⟩ : ∃ (a : Fin 128) (d : Fin 1), j = ix2 a d := ⟨j 0, j 1, eq_ix2 j⟩
    obtain rfl : d = 0 := Subsingleton.elim _ _
    show k0_pay5 (F := Ideal) _ _ (ix2 a (0 : Fin 1)) = 0 + cntAdd m c _ (ix2 a (0 : Fin 1))
    rw [pay5_apply, pay2_apply]
    unfold cntAdd
    rw [dif_pos hb]
  · intro k hk acc j _ _
    obtain ⟨a, d, rfl⟩ : ∃ (a : Fin 128) (d : Fin 1), j = ix2 a d := ⟨j 0, j 1, eq_ix2 j⟩
    obtain rfl : d = 0 := Subsingleton.elim _ _
    show k0_pay5 (F := Ideal) _ _ (ix2 a (0 : Fin 1)) = acc (ix2 a (0 : Fin 1)) + cntAdd m c _ (ix2 a (0 : Fin 1))
    rw [pay5_apply]
    unfold cntAdd
    rw [dif_pos hk]

/-! ## The two result arrays after the region -/

/-- The result tables: half `p`'s entry is the sum of the addends of run `p`'s fifty points. -/
def segOut (c : Dev nD) : FVec Ideal S2x128x128 .f32 := fun i =>
  ∑ s ∈ Finset.range 50, segAdd m c (50 * (i 0).val + s) (ix2 (i 1) (i 2))
def cntOut (c : Dev nD) : FVec Ideal S2x128x1 .f32 := fun i =>
  ∑ s ∈ Finset.range 50, cntAdd m c (50 * (i 0).val + s) (ix2 (i 1) (i 2))

/-- Where the output windows' blocks sit: block `t / 50` on the leading axis, the whole of the other two. -/
theorem idx_out : ∀ t : Fin cfg0.N, win0_2.index t (0 : Fin 3) = t.val / 50 ∧ win0_2.index t (1 : Fin 3) = 0
    ∧ win0_2.index t (2 : Fin 3) = 0 ∧ win0_3.index t (0 : Fin 3) = t.val / 50 ∧ win0_3.index t (1 : Fin 3) = 0
    ∧ win0_3.index t (2 : Fin 3) = 0 :=
  (by decide +kernel : ∀ t : Fin grid0.N, _)

/-- What a run's last point writes back through output window 2 is block `t / 50` of the result array. -/
theorem flushed2_eq (c : Dev nD) (t : Fin cfg0.N) (hf : (cfg0.win 2).flush t = true) :
    (dats m 0 c).flushed 2 t = ((cfg0.win 2).blk t).view.read (Elt Ideal) (segOut m c) := by
  have h1 : t.val % 50 = 49 := (flush0_2 t).mp hf
  have hN : t.val < 100 := lt_of_lt_of_eq t.isLt (show cfg0.N = 100 from N_0)
  show (cfg0.win 2).cut (grid0.coords t) ((dats m 0 c).after 2 t) = _
  rw [after0_2, out2_last m c t h1]
  obtain ⟨e0, e1, e2, e3, e4, e5⟩ := idx_out t
  funext y
  obtain ⟨z, a, d, rfl⟩ : ∃ (z : Fin 1) (a : Fin 128) (d : Fin 128), y = ix3 z a d := ⟨y 0, y 1, y 2, eq_ix3 y⟩
  obtain rfl : z = 0 := Subsingleton.elim _ _
  show k0_pay6 (F := Ideal) _ (ix3 (0 : Fin 1) a d) = segOut m c (((cfg0.win 2).blk t).view.emb (ix3 (0 : Fin 1) a d))
  have hemb : ((cfg0.win 2).blk t).view.emb (ix3 (0 : Fin 1) a d) = ix3 (⟨t.val / 50, by omega⟩ : Fin 2) a d := by
    funext b; apply Fin.ext
    match b with
    | ⟨0, _⟩ => show win0_2.index t (0 : Fin 3) * 1 + 1 * 0 = t.val / 50; omega
    | ⟨1, _⟩ => show win0_2.index t (1 : Fin 3) * 128 + 1 * a.val = a.val; omega
    | ⟨2, _⟩ => show win0_2.index t (2 : Fin 3) * 128 + 1 * d.val = d.val; omega
  rw [hemb]
  rw [pay6_apply, segAt_fold, h1]
  rfl

/-- What a run's last point writes back through output window 3 is block `t / 50` of the result array. -/
theorem flushed3_eq (c : Dev nD) (t : Fin cfg0.N) (hf : (cfg0.win 3).flush t = true) :
    (dats m 0 c).flushed 3 t = ((cfg0.win 3).blk t).view.read (Elt Ideal) (cntOut m c) := by
  have h1 : t.val % 50 = 49 := (flush0_3 t).mp hf
  have hN : t.val < 100 := lt_of_lt_of_eq t.isLt (show cfg0.N = 100 from N_0)
  show (cfg0.win 3).cut (grid0.coords t) ((dats m 0 c).after 3 t) = _
  rw [after0_3, out3_last m c t h1]
  obtain ⟨e0, e1, e2, e3, e4, e5⟩ := idx_out t
  funext y
  obtain ⟨z, a, d, rfl⟩ : ∃ (z : Fin 1) (a : Fin 128) (d : Fin 1), y = ix3 z a d := ⟨y 0, y 1, y 2, eq_ix3 y⟩
  obtain rfl : z = 0 := Subsingleton.elim _ _
  show k0_pay7 (F := Ideal) _ (ix3 (0 : Fin 1) a d) = cntOut m c (((cfg0.win 3).blk t).view.emb (ix3 (0 : Fin 1) a d))
  have hemb : ((cfg0.win 3).blk t).view.emb (ix3 (0 : Fin 1) a d) = ix3 (⟨t.val / 50, by omega⟩ : Fin 2) a d := by
    funext b; apply Fin.ext
    match b with
    | ⟨0, _⟩ => show win0_3.index t (0 : Fin 3) * 1 + 1 * 0 = t.val / 50; omega
    | ⟨1, _⟩ => show win0_3.index t (1 : Fin 3) * 128 + 1 * a.val = a.val; omega
    | ⟨2, _⟩ => show win0_3.index t (2 : Fin 3) * 1 + 1 * d.val = d.val; omega
  rw [hemb]
  obtain rfl : d = 0 := Subsingleton.elim _ _
  rw [pay7_apply, cntAt_fold, h1]
  rfl

/-- Every entry of result array of row sums lies in the block some run's last point writes back, so the array ends as `segOut`. -/
theorem final2 (c : Dev nD) : (dats m 0 c).arrAt 2 cfg0.N = segOut m c :=
  (dats m 0 c).arrAt_eq_of_cover 2 (segOut m c) (flushed2_eq m c) fun i => by
    have hi0 : (i 0).val < 2 := (i 0).isLt
    have hi1 : (i 1).val < 128 := (i 1).isLt
    have hi2 : (i 2).val < 128 := (i 2).isLt
    have hN : cfg0.N = 100 := N_0
    have hb : 50 * (i 0).val + 49 < cfg0.N := by omega
    have ht : (⟨50 * (i 0).val + 49, hb⟩ : Fin cfg0.N).val = 50 * (i 0).val + 49 := rfl
    refine ⟨⟨50 * (i 0).val + 49, hb⟩, (flush0_2 _).mpr (by rw [ht]; omega), ?_⟩
    show i ∈ ((View.whole main_v2_0).slice (win0_2.rect ⟨50 * (i 0).val + 49, hb⟩)).set
    rw [View.set_slice_whole, Rect.mem_set_unit]
    obtain ⟨e0, e1, e2, e3, e4, e5⟩ := idx_out ⟨50 * (i 0).val + 49, hb⟩
    intro a
    match a with
    | ⟨0, _⟩ =>
      show win0_2.index ⟨50 * (i 0).val + 49, hb⟩ (0 : Fin 3) * 1 ≤ (i 0).val ∧ (i 0).val < win0_2.index ⟨50 * (i 0).val + 49, hb⟩ (0 : Fin 3) * 1 + 1
      omega
    | ⟨1, _⟩ =>
      show win0_2.index ⟨50 * (i 0).val + 49, hb⟩ (1 : Fin 3) * 128 ≤ (i 1).val ∧ (i 1).val < win0_2.index ⟨50 * (i 0).val + 49, hb⟩ (1 : Fin 3) * 128 + 128
      omega
    | ⟨2, _⟩ =>
      show win0_2.index ⟨50 * (i 0).val + 49, hb⟩ (2 : Fin 3) * 128 ≤ (i 2).val ∧ (i 2).val < win0_2.index ⟨50 * (i 0).val + 49, hb⟩ (2 : Fin 3) * 128 + 128
      omega

/-- Every entry of result array of counts lies in the block some run's last point writes back, so the array ends as `cntOut`. -/
theorem final3 (c : Dev nD) : (dats m 0 c).arrAt 3 cfg0.N = cntOut m c :=
  (dats m 0 c).arrAt_eq_of_cover 3 (cntOut m c) (flushed3_eq m c) fun i => by
    have hi0 : (i 0).val < 2 := (i 0).isLt
    have hi1 : (i 1).val < 128 := (i 1).isLt
    have hi2 : (i 2).val < 1 := (i 2).isLt
    have hN : cfg0.N = 100 := N_0
    have hb : 50 * (i 0).val + 49 < cfg0.N := by omega
    have ht : (⟨50 * (i 0).val + 49, hb⟩ : Fin cfg0.N).val = 50 * (i 0).val + 49 := rfl
    refine ⟨⟨50 * (i 0).val + 49, hb⟩, (flush0_3 _).mpr (by rw [ht]; omega), ?_⟩
    show i ∈ ((View.whole main_v2_1).slice (win0_3.rect ⟨50 * (i 0).val + 49, hb⟩)).set
    rw [View.set_slice_whole, Rect.mem_set_unit]
    obtain ⟨e0, e1, e2, e3, e4, e5⟩ := idx_out ⟨50 * (i 0).val + 49, hb⟩
    intro a
    match a with
    | ⟨0, _⟩ =>
      show win0_3.index ⟨50 * (i 0).val + 49, hb⟩ (0 : Fin 3) * 1 ≤ (i 0).val ∧ (i 0).val < win0_3.index ⟨50 * (i 0).val + 49, hb⟩ (0 : Fin 3) * 1 + 1
      omega
    | ⟨1, _⟩ =>
      show win0_3.index ⟨50 * (i 0).val + 49, hb⟩ (1 : Fin 3) * 128 ≤ (i 1).val ∧ (i 1).val < win0_3.index ⟨50 * (i 0).val + 49, hb⟩ (1 : Fin 3) * 128 + 128
      omega
    | ⟨2, _⟩ =>
      show win0_3.index ⟨50 * (i 0).val + 49, hb⟩ (2 : Fin 3) * 1 ≤ (i 2).val ∧ (i 2).val < win0_3.index ⟨50 * (i 0).val + 49, hb⟩ (2 : Fin 3) * 1 + 1
      omega

end Cert.KernelIdeal.Acc

end
-- ==== Proof.BlockReads.lean ====
/-
  The kernel's two input windows, read back to the launched arrays. The grid is 2×50 in row-major order and
  both index maps send point (p, k) to block number p*50 + k, so point t reads block number t. The row block
  at point t, entry (r, d), is entry (t*10000 + r, d) of the row table. The label array the region finds is
  what the host made of the labels before it: a reshape to [100, 10000] (entry (q, r) is label q*10000 + r)
  and a broadcast to [100, 1, 10000] (entry (q, 0, r) is entry (q, r)); so the label block at point t,
  entry (0, 0, r), is label t*10000 + r.
-/
import proofs.«407838_j70454643524168_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Idealize.ShloMosaic Idealize.ShloMosaic.TcCoe Idealize.ShloMosaic.ValueIdx Idealize.SL.Sem Cert.KernelIdeal Cert.KernelIdeal.Gen

variable {F : FTy → Type} [FloatOps F] (m : (ℓ : Loc nD τ sig) → Buf (Elt F) ℓ)

/-- The printed index maps over the grid: point `t` reads block number `t` of each input on its leading axis,
    block 0 on the other axes. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- The row block at point `t`: entry `(r, d)` is entry `(t*10000 + r, d)` of the row table as launched. -/
theorem rows_read (c : Dev nD) (t : Fin cfg0.N) (r : Fin 10000) (d : Fin 128) (hb : t.val * 10000 + r.val < 1000000) :
    (iblk m c 0 t : Vec F S10000x128 .f32) (ix2 r d) = m ((c : Thread nD τ).loc main_arg0) (ix2 ⟨t.val * 10000 + r.val, hb⟩ d) := by
  unfold iblk
  rw [View.read_apply]
  show V m c main_arg0 (((cfg0.win 0).blk t).view.emb (ix2 r d)) = _
  rw [V_main_arg0 m c]
  obtain ⟨e0, e1, -⟩ := idx_facts t
  refine congrArg _ (funext fun a => Fin.ext ?_)
  match a with
  | ⟨0, _⟩ => show win0_0.index t (0 : Fin 2) * 10000 + 1 * r.val = t.val * 10000 + r.val; omega
  | ⟨1, _⟩ => show win0_0.index t (1 : Fin 2) * 128 + 1 * d.val = d.val; omega

/-- The label array the region finds: the launched labels reshaped to [100, 10000], then broadcast along a
    new unit axis to [100, 1, 10000]. -/
theorem labs_host (c : Dev nD) :
    (V m c main_v1 : S100x1x10000.Idx → BitVec 32) = broadcastInDim S100x1x10000 ![0, 2] bcast_S100x10000_S100x1x10000_0_2
      (shapeCast S100x10000 (m ((c : Thread nD τ).loc main_arg1)) shapeCasts_S1000000_S100x10000) := by
  show StableHlo.after hostOps0 (fun b => m (c, b)) (Proc.devRef .tc main_v1) = _
  after_results
  rfl

/-- The label block at point `t`: entry `(0, 0, r)` is label `t*10000 + r` as launched. -/
theorem labs_read (c : Dev nD) (t : Fin cfg0.N) (r : Fin 10000) (hb : t.val * 10000 + r.val < 1000000) :
    (iblk m c 1 t : Vec F S1x1x10000 .i32) (ix3 (0 : Fin 1) (0 : Fin 1) r) = m ((c : Thread nD τ).loc main_arg1) (ix1 ⟨t.val * 10000 + r.val, hb⟩) := by
  have ht : t.val < 100 := lt_of_lt_of_eq t.isLt N_0
  unfold iblk
  rw [View.read_apply]
  show V m c main_v1 (((cfg0.win 1).blk t).view.emb (ix3 (0 : Fin 1) (0 : Fin 1) r)) = _
  rw [labs_host m c]
  obtain ⟨-, -, e0, e1, e2⟩ := idx_facts t
  -- the block's entry (0, 0, r) sits at (t, 0, r) of the [100, 1, 10000] array
  have hemb : ((cfg0.win 1).blk t).view.emb (ix3 (0 : Fin 1) (0 : Fin 1) r) = ix3 (⟨t.val, ht⟩ : Fin 100) (0 : Fin 1) r := by
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 10000 + 1 * r.val = r.val; omega
  rw [hemb]
  -- the broadcast reads entry (t, r) of the [100, 10000] array; the reshape reads the label at the same row-major position
  refine (broadcastInDim_apply ![0, 2] bcast_S100x10000_S100x1x10000_0_2 _ _ (ix2 (⟨t.val, ht⟩ : Fin 100) r) ?_).trans ?_
  · intro a
    match a with
    | ⟨0, _⟩ => rfl
    | ⟨1, _⟩ => rfl
  · refine shapeCast_apply _ _ _ (ix1 ⟨t.val * 10000 + r.val, hb⟩) ?_
    rw [Shape.rowMajor_val_one, Shape.rowMajor_val_two]
    rfl

end Cert.KernelIdeal.Blocks

end
-- ==== Proof.LibRunSums.lean ====
/-
  A sum over `Fin (P · J · T)` read as `P` blocks of `J` runs of `T` consecutive terms: term `t` of run `s` of block
  `p` is term `(J · p + s) · T + t`. The index `n < a · b` is `q · b + i` for exactly one `q < a` and `i < b` (quotient
  and remainder), so a sum over `Fin (a · b)` is the double sum over `q` and `i`; applying this twice, first to
  `(P · J) · T` and then to `P · J`, gives the triple sum. General facts about sums over initial segments of the
  naturals.
-/
import Mathlib.Algebra.BigOperators.Fin
import Mathlib.Logic.Equiv.Fin.Basic

namespace Idealize.ShloMosaic.RunSums

/-- A sum over `Fin (a · b)` of a function of the position is the sum over `a` runs of `b` consecutive positions:
    position `i` of run `q` is `q · b + i`. -/
theorem sum_fin_mul_val {M : Type*} [AddCommMonoid M] (a b : ℕ) (f : ℕ → M) :
    ∑ n : Fin (a * b), f n.val = ∑ q : Fin a, ∑ i : Fin b, f (q.val * b + i.val) := by
  rw [← Equiv.sum_comp (finProdFinEquiv (m := a) (n := b)) (fun n : Fin (a * b) => f n.val), Fintype.sum_prod_type]
  refine Finset.sum_congr rfl fun q _ => Finset.sum_congr rfl fun i _ => ?_
  show f ((finProdFinEquiv (q, i)).val) = f (q.val * b + i.val)
  rw [finProdFinEquiv_apply_val, Nat.add_comm, Nat.mul_comm]

/-- `P` blocks of `J` runs of `T` consecutive terms exhaust the first `P · J · T` terms, each once. -/
theorem sum_runs {M : Type*} [AddCommMonoid M] (P J T : ℕ) (f : ℕ → M) :
    ∑ p : Fin P, ∑ s ∈ Finset.range J, ∑ t : Fin T, f ((J * p.val + s) * T + t.val) = ∑ n : Fin (P * J * T), f n.val := by
  rw [sum_fin_mul_val (P * J) T f, sum_fin_mul_val P J (fun q => ∑ t : Fin T, f (q * T + t.val))]
  refine Finset.sum_congr rfl fun p _ => ?_
  rw [Finset.sum_range]
  refine Finset.sum_congr rfl fun s _ => ?_
  rw [Nat.mul_comm J p.val]

/-- Two blocks of fifty runs of ten thousand terms are the first million terms: `2 · 50 · 10000 = 1000000`, and the
    sum is carried along that equation of numerals, position by position. -/
theorem sum_rows {M : Type*} [AddCommMonoid M] (f : ℕ → M) :
    ∑ p : Fin 2, ∑ s ∈ Finset.range 50, ∑ t : Fin 10000, f ((50 * p.val + s) * 10000 + t.val) = ∑ n : Fin 1000000, f n.val := by
  have h : 2 * 50 * 10000 = 1000000 := rfl
  refine (sum_runs 2 50 10000 f).trans ?_
  exact Fintype.sum_equiv (finCongr h) _ _ (fun _ => rfl)

end Idealize.ShloMosaic.RunSums
-- ==== Proof.TailDef.lean ====
/-
  The host operations after the kernel, as one function of the kernel's two result arrays.

  The kernel leaves, per half `p` of the rows, a table of per-class row sums `S[p, c, d]` and a column of per-class
  row counts `C[p, c, 0]`, for 128 class slots. The host adds the two halves, keeps the first 64 classes, multiplies
  the sums into `W`, divides by the count (at least one), and adds the bias where the count is positive.
-/
import proofs.«407838_j70454643524168_3_alg».proof.KernelIdeal

noncomputable section

namespace Cert.KernelIdeal.Tail

open Idealize.ShloMosaic Cert.KernelIdeal
open Cert.KernelIdeal.Facts₀

variable {F : FTy → Type} [FloatOps F] [Cert.KernelIdeal.Facts]

/-- The per-class counts of the first 64 classes, the two halves added: a vector `[64]`. -/
def counts (C : FVec F S2x128x1 .f32) : FVec F S64 .f32 :=
  shapeCast S64 (extractStridedSlice S64x1 ![0, 0]
    (Host.reduceAdd C (constant S_ .f32 0x00000000#32) reducesTo_S2x128x1_S128x1_d0 h_S_) slices_S128x1_S64x1_0_0)
    shapeCasts_S64x1_S64

/-- The per-class row sums of the first 64 classes, the two halves added: a table `[64, 128]`. -/
def sums (S : FVec F S2x128x128 .f32) : FVec F S64x128 .f32 :=
  extractStridedSlice S64x128 ![0, 0]
    (Host.reduceAdd S (constant S_ .f32 0x00000000#32) reducesTo_S2x128x128_S128x128_d0 h_S_) slices_S128x128_S64x128_0_0

/-- The prototypes from the two result arrays: `sums · W / max(counts, 1) + (b where counts > 0, else 0)`. -/
def protos (S : FVec F S2x128x128 .f32) (C : FVec F S2x128x1 .f32) (W : FVec F S128x64 .f32) (b : FVec F S64 .f32) :
    FVec F S64x64 .f32 :=
  addf
    (Host.divf
      (Host.dotGeneral dot_S64x128_S128x64_S64x64_1_0_0_1_n_n (some ContractPrecision.fp32) (sums S) W)
      (broadcastInDim S64x64 ![0, 1] bcast_S64x1_S64x64_0_1
        (broadcastInDim S64x1 ![0] bcast_S64_S64x1_0
          (maximumf (counts C) (broadcastInDim S64 ![] bcast_S_S64 (constant S_ .f32 0x3F800000#32))))))
    (select
      (broadcastInDim S64x64 ![0, 1] bcast_S64x1_S64x64_0_1
        (cmpf CmpFPredicate.ogt (broadcastInDim S64x1 ![0] bcast_S64_S64x1_0 (counts C))
          (broadcastInDim S64x1 ![] bcast_S_S64x1 (constant S_ .f32 0x00000000#32))))
      (broadcastInDim S64x64 ![0, 1] bcast_S1x64_S64x64_0_1 (broadcastInDim S1x64 ![1] bcast_S64_S1x64_1 b))
      (broadcastInDim S64x64 ![] bcast_S_S64x64 (constant S_ .f32 0x00000000#32)))

end Cert.KernelIdeal.Tail

end
-- ==== Proof.TailRead.lean ====
/-
  The host operations after the kernel, read at an entry, over the extended reals.

  Entry `(c, e)` of the prototypes is the first 64 classes' row sums (the two halves added) against column `e` of
  `W`, divided by the class's count (the two halves added) raised to at least one, plus `b[e]` where the count is
  positive. The pieces: a host sum over the leading axis of extent two is the sum of the two halves; a slice from
  offset zero keeps the coordinate; a column `[a, 1]` recast as a vector `[a]` reads the column at `(i, 0)`; a
  broadcast reads its operand on the axes it names.
-/
import proofs.«407838_j70454643524168_3_alg».proof.Proof.TailDef
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tail

open Idealize.ShloMosaic Idealize.ShloMosaic.ValueIdx Cert.KernelIdeal
open Cert.KernelIdeal.Facts₀

/-! ## General pieces -/

section General
variable {α : Type}

/-- Dropping the leading axis of `(p, a, b)` leaves `(a, b)`; -/
theorem drop_ix3 {n m : ℕ} (h : (⟨3, ![2, n, m]⟩ : Shape).ReducesTo [0] ⟨2, ![n, m]⟩) (p : Fin 2) (a : Fin n)
    (b : Fin m) : h.drop (ix3 p a b) = ix2 a b := by
  funext k
  match k with
  | ⟨0, _⟩ => rfl
  | ⟨1, _⟩ => rfl

/-- and an index that drops to `(a, b)` is `(its leading coordinate, a, b)`; -/
theorem eq_ix3_of_drop {n m : ℕ} (h : (⟨3, ![2, n, m]⟩ : Shape).ReducesTo [0] ⟨2, ![n, m]⟩)
    (i : (⟨3, ![2, n, m]⟩ : Shape).Idx) (a : Fin n) (b : Fin m) (hd : h.drop i = ix2 a b) :
    i = ix3 (i 0) a b := by
  have h1 : (i 1).val = a.val := congrArg Fin.val (congrFun hd 0)
  have h2 : (i 2).val = b.val := congrArg Fin.val (congrFun hd 1)
  funext k
  refine Fin.ext ?_
  match k with
  | ⟨0, _⟩ => rfl
  | ⟨1, _⟩ => exact h1
  | ⟨2, _⟩ => exact h2

/-- so the indices a sum over the leading axis collects at `(a, b)` are the two `(p, a, b)`. -/
def halfEmb {n m : ℕ} (a : Fin n) (b : Fin m) : Fin 2 ↪ (⟨3, ![2, n, m]⟩ : Shape).Idx :=
  ⟨fun p => ix3 p a b, fun p p' hh => by have := congrFun hh 0; exact this⟩

theorem filter_drop {n m : ℕ} (h : (⟨3, ![2, n, m]⟩ : Shape).ReducesTo [0] ⟨2, ![n, m]⟩) (a : Fin n) (b : Fin m) :
    Finset.univ.filter (fun i : (⟨3, ![2, n, m]⟩ : Shape).Idx => h.drop i = ix2 a b)
      = Finset.univ.map (halfEmb a b) := by
  ext i
  simp only [Finset.mem_filter, Finset.mem_univ, true_and, Finset.mem_map, halfEmb, Function.Embedding.coeFn_mk]
  exact ⟨fun hd => ⟨i 0, (eq_ix3_of_drop h i a b hd).symm⟩, fun ⟨p, hp⟩ => hp ▸ drop_ix3 h p a b⟩

/-- The exact host sum of a `[2, n, m]` array over its leading axis, read at `(a, b)`: the initial value plus the
    two halves' entries. -/
theorem hostReduceAdd_halves {n m : ℕ} (h : (⟨3, ![2, n, m]⟩ : Shape).ReducesTo [0] ⟨2, ![n, m]⟩)
    (x : (⟨3, ![2, n, m]⟩ : Shape).Idx → EReal) (init : EReal) (a : Fin n) (b : Fin m) :
    Ideal.hostReduceAdd h x init (ix2 a b) = init + ∑ p : Fin 2, x (ix3 p a b) := by
  unfold Ideal.hostReduceAdd
  rw [filter_drop h a b, Finset.sum_map]
  rfl

/-- A column `[a, 1]` recast as a vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A select on a decided proposition's bit is the `if`. -/
theorem select_ofBool (P : Prop) [Decidable P] (x y : α) :
    Scalar.select (BitVec.ofBool (decide P)) x y = if P then x else y := by
  by_cases hP : P
  · rw [if_pos hP, decide_eq_true hP]
    exact select_one x y
  · rw [if_neg hP, decide_eq_false hP]
    exact select_zero x y

/-- The word `0x3F800000` is the real number one. -/
theorem ofBits_one_f32 : Ideal.ofBits .f32 0x3F800000#32 = 1 := by
  simp [Ideal.ofBits, Ideal.ieee, -EReal.coe_mul]; norm_num

/-- The host sum over the leading axis from the zero word is the sum of the two halves. -/
theorem reduceAdd_halves {n m : ℕ} (h : (⟨3, ![2, n, m]⟩ : Shape).ReducesTo [0] ⟨2, ![n, m]⟩) (hu : 0 < S_.numel)
    (x : FVec Ideal ⟨3, ![2, n, m]⟩ .f32) (a : Fin n) (b : Fin m) :
    Host.reduceAdd (F := Ideal) x (constant (F := Ideal) S_ .f32 0x00000000#32) h hu (ix2 a b)
      = ∑ p : Fin 2, x (ix3 p a b) := by
  show Ideal.hostReduceAdd h x (Ideal.ofBits .f32 0x00000000#32) (ix2 a b) = _
  rw [hostReduceAdd_halves, Ideal.ofBits_zero_f32, zero_add]

end General

/-! ## The pieces at this program's shapes -/

variable [Cert.KernelIdeal.Facts]

section Broadcasts
variable {α : Type}

/-- A scalar broadcast to any shape reads the scalar. -/
theorem bcast_scalar_apply {t : Shape} (h : S_.BroadcastsInDim t (![] : Fin 0 → Fin t.rank)) (y : S_.Idx → α)
    (j : t.Idx) : broadcastInDim t ![] h y j = y ix0 :=
  broadcastInDim_apply _ h y j ix0 (fun a => a.elim0)

/-- A column `[64, 1]` broadcast along the second axis reads the column at `(c, 0)`. -/
theorem bcast_col_apply (y : S64x1.Idx → α) (c e : Fin 64) :
    broadcastInDim S64x64 ![0, 1] bcast_S64x1_S64x64_0_1 y (ix2 c e) = y (ix2 c (0 : Fin 1)) :=
  broadcastInDim_apply _ bcast_S64x1_S64x64_0_1 y (ix2 c e) (ix2 c (0 : Fin 1)) (fun a => match a with
    | ⟨0, _⟩ => by show c.val = if (64 : Nat) = 1 then 0 else c.val; rw [if_neg (by decide)]
    | ⟨1, _⟩ => by show 0 = if (1 : Nat) = 1 then 0 else e.val; rw [if_pos rfl])

/-- A row `[1, 64]` broadcast along the first axis reads the row at `(0, e)`. -/
theorem bcast_row_apply (y : S1x64.Idx → α) (c e : Fin 64) :
    broadcastInDim S64x64 ![0, 1] bcast_S1x64_S64x64_0_1 y (ix2 c e) = y (ix2 (0 : Fin 1) e) :=
  broadcastInDim_apply _ bcast_S1x64_S64x64_0_1 y (ix2 c e) (ix2 (0 : Fin 1) e) (fun a => match a with
    | ⟨0, _⟩ => by show 0 = if (1 : Nat) = 1 then 0 else c.val; rw [if_pos rfl]
    | ⟨1, _⟩ => by show e.val = if (64 : Nat) = 1 then 0 else e.val; rw [if_neg (by decide)])

/-- A vector `[64]` set as a column reads the vector at the row. -/
theorem bcast_vec_col_apply (v : S64.Idx → α) (c : Fin 64) (u : Fin 1) :
    broadcastInDim S64x1 ![0] bcast_S64_S64x1_0 v (ix2 c u) = v (ix1 c) :=
  broadcastInDim_apply _ bcast_S64_S64x1_0 v (ix2 c u) (ix1 c) (fun a => match a with
    | ⟨0, _⟩ => by show c.val = if (64 : Nat) = 1 then 0 else c.val; rw [if_neg (by decide)])

/-- A vector `[64]` set as a row reads the vector at the column. -/
theorem bcast_vec_row_apply (v : S64.Idx → α) (u : Fin 1) (e : Fin 64) :
    broadcastInDim S1x64 ![1] bcast_S64_S1x64_1 v (ix2 u e) = v (ix1 e) :=
  broadcastInDim_apply _ bcast_S64_S1x64_1 v (ix2 u e) (ix1 e) (fun a => match a with
    | ⟨0, _⟩ => by show e.val = if (64 : Nat) = 1 then 0 else e.val; rw [if_neg (by decide)])

end Broadcasts

/-- The counts at class `c`: the two halves' counts added. -/
theorem counts_apply (C : FVec Ideal S2x128x1 .f32) (c : Fin 64) (hc : c.val < 128) :
    counts (F := Ideal) C (ix1 c) = ∑ p : Fin 2, C (ix3 p (⟨c.val, hc⟩ : Fin 128) (0 : Fin 1)) := by
  unfold counts
  refine (shapeCast_a1_a_apply _ shapeCasts_S64x1_S64 c).trans ?_
  refine (slice2_axis0_apply 0 _ slices_S128x1_S64x1_0_0 c (0 : Fin 1) (⟨c.val, hc⟩ : Fin 128)
    (Nat.zero_add _).symm).trans ?_
  exact reduceAdd_halves reducesTo_S2x128x1_S128x1_d0 h_S_ C (⟨c.val, hc⟩ : Fin 128) (0 : Fin 1)

/-- The row sums at class `c`, coordinate `d`: the two halves' sums added. -/
theorem sums_apply (S : FVec Ideal S2x128x128 .f32) (c : Fin 64) (d : Fin 128) (hc : c.val < 128) :
    sums (F := Ideal) S (ix2 c d) = ∑ p : Fin 2, S (ix3 p (⟨c.val, hc⟩ : Fin 128) d) := by
  unfold sums
  refine (slice2_axis0_apply 0 _ slices_S128x128_S64x128_0_0 c d (⟨c.val, hc⟩ : Fin 128)
    (Nat.zero_add _).symm).trans ?_
  exact reduceAdd_halves reducesTo_S2x128x128_S128x128_d0 h_S_ S (⟨c.val, hc⟩ : Fin 128) d

/-- The product with `W` at `(c, e)`: row `c` against column `e`. -/
theorem dot_apply (A : FVec Ideal S64x128 .f32) (W : FVec Ideal S128x64 .f32) (c e : Fin 64) :
    Host.dotGeneral (F := Ideal) dot_S64x128_S128x64_S64x64_1_0_0_1_n_n (some ContractPrecision.fp32) A W (ix2 c e)
      = ∑ d : Fin 128, A (ix2 c d) * W (ix2 d e) := by
  simp only [Host.dotGeneral]
  rw [Ideal.dotGeneral_apply,
    ← Equiv.sum_comp (ValueIdx.contrEquiv1 dot_S64x128_S128x64_S64x64_1_0_0_1_n_n 128 rfl rfl).symm]
  refine Finset.sum_congr rfl fun k _ => ?_
  have hk := ValueIdx.contrEquiv1_symm_val dot_S64x128_S128x64_S64x64_1_0_0_1_n_n 128 rfl rfl k
  have el : dot_S64x128_S128x64_S64x64_1_0_0_1_n_n.lhsIdx (ix2 c e)
      ((ValueIdx.contrEquiv1 dot_S64x128_S128x64_S64x64_1_0_0_1_n_n 128 rfl rfl).symm k) = ix2 c k :=
    funext fun a => Fin.ext (by
      match a with
      | ⟨0, _⟩ => rfl
      | ⟨1, _⟩ => exact (dot_S64x128_S128x64_S64x64_1_0_0_1_n_n.lhsIdx_val_of_single rfl _ _).trans hk)
  have er : dot_S64x128_S128x64_S64x64_1_0_0_1_n_n.rhsIdx (ix2 c e)
      ((ValueIdx.contrEquiv1 dot_S64x128_S128x64_S64x64_1_0_0_1_n_n 128 rfl rfl).symm k) = ix2 k e :=
    funext fun a => Fin.ext (by
      match a with
      | ⟨0, _⟩ => exact (dot_S64x128_S128x64_S64x64_1_0_0_1_n_n.rhsIdx_val_of_single rfl _ _).trans hk
      | ⟨1, _⟩ => rfl)
  rw [el, er]

/-- THE PROTOTYPES READ AT `(c, e)`. -/
theorem protos_apply (S : FVec Ideal S2x128x128 .f32) (C : FVec Ideal S2x128x1 .f32) (W : FVec Ideal S128x64 .f32) (b : FVec Ideal S64 .f32)
    (c e : Fin 64) (hc : c.val < 128) :
    protos (F := Ideal) S C W b (ix2 c e)
      = Ideal.div (∑ d : Fin 128, (∑ p : Fin 2, S (ix3 p (⟨c.val, hc⟩ : Fin 128) d)) * W (ix2 d e))
          (max (∑ p : Fin 2, C (ix3 p (⟨c.val, hc⟩ : Fin 128) (0 : Fin 1))) 1)
        + (if 0 < ∑ p : Fin 2, C (ix3 p (⟨c.val, hc⟩ : Fin 128) (0 : Fin 1)) then b (ix1 e) else 0) := by
  unfold protos
  rw [addf_apply, select_apply]
  congr 1
  · show Ideal.div _ _ = _
    rw [dot_apply, bcast_col_apply, bcast_vec_col_apply, maximumf_apply, counts_apply C c hc, bcast_scalar_apply,
      constant_apply, ofBits_one_f32]
    congr 1
    exact Finset.sum_congr rfl fun d _ => by rw [sums_apply S c d hc]
  · rw [bcast_col_apply, cmpf_apply, bcast_vec_col_apply, counts_apply C c hc, bcast_scalar_apply, constant_apply,
      Ideal.ofBits_zero_f32, bcast_row_apply, bcast_vec_row_apply, bcast_scalar_apply, constant_apply,
      Ideal.ofBits_zero_f32]
    exact select_ofBool _ _ _

end Cert.KernelIdeal.Tail

end
-- ==== Proof.KernelValue.lean ====
/-
  The idealized kernel's result, as a function of its arguments.

  After the region the two result arrays hold, per half of the rows, the per-class row sums and the per-class counts
  of the half's fifty blocks. Block `n` of the row table holds rows `10000 n … 10000 n + 9999`, and the label block at
  point `n` the labels of those rows, so the two halves added run over every row of the table exactly once: the class's
  row sums and the class's size over the whole table. The host operations after the kernel turn these into the
  pooled prototypes.
-/
import proofs.«407838_j70454643524168_3_alg».proof.Proof.KernelFold
import proofs.«407838_j70454643524168_3_alg».proof.Proof.BlockReads
import proofs.«407838_j70454643524168_3_alg».proof.Proof.LibRunSums
import proofs.«407838_j70454643524168_3_alg».proof.Proof.TailDef
import proofs.«407838_j70454643524168_3_alg».proof.Proof.TailRead
import proofs.«407838_j70454643524168_3_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Acc Cert.KernelIdeal.Body Cert.KernelIdeal.Blocks
open Idealize.ShloMosaic.ValueIdx Idealize.ShloMosaic.StableHlo Cert.Proto

section tail
variable {F : FTy → Type} [FloatOps F] (m : (ℓ : Loc nD τ sig) → Buf (Elt F) ℓ)

set_option maxHeartbeats 4000000 in
/-- The program's result after the host operations that follow the kernel: the prototypes of the kernel's two result
    arrays, the matrix and the bias (the three stretches of host operations composed, the arrays read where the region
    left them, the two untouched arguments where the launch found them). -/
theorem tail_eq (c : Dev nD) :
    Pipeline.afterTail₀ cfgs (dats m) 0 (V0 m) [hostOps1, hostOps1_1, hostOps1_2] c main_v19
      = Tail.protos ((dats m 0 c).arrAt 2 cfg0.N) ((dats m 0 c).arrAt 3 cfg0.N)
          (m ((c : Thread nD τ).loc main_arg2)) (m ((c : Thread nD τ).loc main_arg3)) := by
  unfold Pipeline.afterTail₀
  simp only [hostOps1, hostOps1_1, hostOps1_2, List.flatten_cons, List.flatten_nil, List.append_nil, List.cons_append, List.nil_append]
  after_results
  have e2 : Pipeline.withArrays (cfgs 0).spec c (V0 m c) (fun w => (dats m 0 c).arrAt w (cfgs 0).N) (Proc.devRef .tc main_v2_0)
      = (dats m 0 c).arrAt 2 cfg0.N :=
    Pipeline.withArrays_arr spec0 launch0.win.arr_inj c (V0 m c) (fun w => (dats m 0 c).arrAt w (cfgs 0).N) 2
  have e3 : Pipeline.withArrays (cfgs 0).spec c (V0 m c) (fun w => (dats m 0 c).arrAt w (cfgs 0).N) (Proc.devRef .tc main_v2_1)
      = (dats m 0 c).arrAt 3 cfg0.N :=
    Pipeline.withArrays_arr spec0 launch0.win.arr_inj c (V0 m c) (fun w => (dats m 0 c).arrAt w (cfgs 0).N) 3
  have ea2 : Pipeline.withArrays (cfgs 0).spec c (V0 m c) (fun w => (dats m 0 c).arrAt w (cfgs 0).N) (Proc.devRef .tc main_arg2)
      = m ((c : Thread nD τ).loc main_arg2) :=
    (Pipeline.withArrays_of_ne spec0 c (V0 m c) (fun w => (dats m 0 c).arrAt w (cfgs 0).N) main_arg2 (by exact (by decide : ∀ w, Pipeline.arrRef spec0 w ≠ main_arg2))).trans (V_main_arg2 m c)
  have ea3 : Pipeline.withArrays (cfgs 0).spec c (V0 m c) (fun w => (dats m 0 c).arrAt w (cfgs 0).N) (Proc.devRef .tc main_arg3)
      = m ((c : Thread nD τ).loc main_arg3) :=
    (Pipeline.withArrays_of_ne spec0 c (V0 m c) (fun w => (dats m 0 c).arrAt w (cfgs 0).N) main_arg3 (by exact (by decide : ∀ w, Pipeline.arrRef spec0 w ≠ main_arg3))).trans (V_main_arg3 m c)
  rw [e2, e3, ea2, ea3]
  rfl
end tail

section sums
variable (m : (ℓ : Loc nD τ sig) → Buf (Elt Ideal) ℓ)

/-- Row `n` of the table as it counts towards class `a`, coordinate `d`: `X[n, d]` if row `n` has class `a`, else zero
    (and zero past the table's end). -/
def rowTerm (X : FVec Ideal SX .f32) (lab : IVec SL 32) (a : ℕ) (d : Fin 128) (n : ℕ) : EReal :=
  if h : n < 1000000 then (if (lab (ix1 ⟨n, h⟩)).toInt = (a : ℤ) then X (ix2 ⟨n, h⟩ d) else 0) else 0

/-- Row `n` as it counts towards the size of class `a`: one if it has class `a`, else zero. -/
def oneTerm (lab : IVec SL 32) (a : ℕ) (n : ℕ) : EReal :=
  if h : n < 1000000 then (if (lab (ix1 ⟨n, h⟩)).toInt = (a : ℤ) then 1 else 0) else 0

/-- Point `n`'s addend to the row sums, over the arguments: block `n` holds rows `10000 n … 10000 n + 9999`. -/
theorem segAdd_eq (c : Dev nD) (n : ℕ) (hn : n < cfg0.N) (a d : Fin 128) :
    segAdd m c n (ix2 a d)
      = ∑ t : Fin 10000, rowTerm (m ((c : Thread nD τ).loc main_arg0)) (m ((c : Thread nD τ).loc main_arg1)) a.val d (n * 10000 + t.val) := by
  have hN : cfg0.N = 100 := N_0
  unfold segAdd
  rw [dif_pos hn]
  refine Finset.sum_congr rfl fun t _ => ?_
  have hb : (⟨n, hn⟩ : Fin cfg0.N).val * 10000 + t.val < 1000000 := by have := t.isLt; show n * 10000 + t.val < 1000000; omega
  show hot (iblk m c 1 ⟨n, hn⟩) a t * (iblk m c 0 ⟨n, hn⟩ : Vec Ideal S10000x128 .f32) (ix2 t d) = _
  unfold hot rowTerm
  rw [labs_read m c ⟨n, hn⟩ t hb, rows_read m c ⟨n, hn⟩ t d hb, dif_pos hb]
  split <;> simp

/-- Point `n`'s addend to the counts, over the arguments. -/
theorem cntAdd_eq (c : Dev nD) (n : ℕ) (hn : n < cfg0.N) (a : Fin 128) :
    cntAdd m c n (ix2 a (0 : Fin 1))
      = ∑ t : Fin 10000, oneTerm (m ((c : Thread nD τ).loc main_arg1)) a.val (n * 10000 + t.val) := by
  have hN : cfg0.N = 100 := N_0
  unfold cntAdd
  rw [dif_pos hn]
  refine Finset.sum_congr rfl fun t _ => ?_
  have hb : (⟨n, hn⟩ : Fin cfg0.N).val * 10000 + t.val < 1000000 := by have := t.isLt; show n * 10000 + t.val < 1000000; omega
  show hot (iblk m c 1 ⟨n, hn⟩) a t = _
  unfold hot oneTerm
  rw [labs_read m c ⟨n, hn⟩ t hb, dif_pos hb]

/-- The two halves of the result table added are the class's row sums over the whole table. -/
theorem sum_segOut (c : Dev nD) (a d : Fin 128) :
    ∑ p : Fin 2, segOut m c (ix3 p a d)
      = classSum (m ((c : Thread nD τ).loc main_arg0)) (m ((c : Thread nD τ).loc main_arg1)) a.val d := by
  have hN : cfg0.N = 100 := N_0
  have e : ∀ p : Fin 2, segOut m c (ix3 p a d) = ∑ s ∈ Finset.range 50, ∑ t : Fin 10000,
      rowTerm (m ((c : Thread nD τ).loc main_arg0)) (m ((c : Thread nD τ).loc main_arg1)) a.val d ((50 * p.val + s) * 10000 + t.val) := by
    intro p
    show ∑ s ∈ Finset.range 50, segAdd m c (50 * p.val + s) (ix2 a d) = _
    refine Finset.sum_congr rfl fun s hs => ?_
    have hs' : s < 50 := Finset.mem_range.mp hs
    have hp := p.isLt
    exact segAdd_eq m c (50 * p.val + s) (by omega) a d
  rw [Fintype.sum_congr _ _ e, Idealize.ShloMosaic.RunSums.sum_rows]
  unfold classSum rowTerm
  refine Finset.sum_congr rfl fun n _ => ?_
  rw [dif_pos n.isLt]

/-- The two halves of the result counts added are the class's size. -/
theorem sum_cntOut (c : Dev nD) (a : Fin 128) :
    ∑ p : Fin 2, cntOut m c (ix3 p a (0 : Fin 1)) = classCount (m ((c : Thread nD τ).loc main_arg1)) a.val := by
  have hN : cfg0.N = 100 := N_0
  have e : ∀ p : Fin 2, cntOut m c (ix3 p a (0 : Fin 1)) = ∑ s ∈ Finset.range 50, ∑ t : Fin 10000,
      oneTerm (m ((c : Thread nD τ).loc main_arg1)) a.val ((50 * p.val + s) * 10000 + t.val) := by
    intro p
    show ∑ s ∈ Finset.range 50, cntAdd m c (50 * p.val + s) (ix2 a (0 : Fin 1)) = _
    refine Finset.sum_congr rfl fun s hs => ?_
    have hs' : s < 50 := Finset.mem_range.mp hs
    have hp := p.isLt
    exact cntAdd_eq m c (50 * p.val + s) (by omega) a
  rw [Fintype.sum_congr _ _ e, Idealize.ShloMosaic.RunSums.sum_rows]
  unfold classCount oneTerm
  refine Finset.sum_congr rfl fun n _ => ?_
  rw [dif_pos n.isLt]
end sums

section result
variable (m : (ℓ : Loc nD τ sig) → Buf (Elt Ideal) ℓ) (ρ : Dev nD → PrngReg)

/-- The prototypes of the kernel's two result arrays are the pooled prototypes of the arguments: the halves added are
    the class's row sums and the class's size. -/
theorem protos_eq (c : Dev nD) :
    Tail.protos (F := Ideal) (segOut m c) (cntOut m c) (m ((c : Thread nD τ).loc main_arg2)) (m ((c : Thread nD τ).loc main_arg3))
      = resultPooled (m ((c : Thread nD τ).loc main_arg0)) (m ((c : Thread nD τ).loc main_arg1)) (m ((c : Thread nD τ).loc main_arg2)) (m ((c : Thread nD τ).loc main_arg3)) := by
  funext i
  obtain ⟨a, e, rfl⟩ : ∃ (a e : Fin 64), i = ix2 a e := ⟨i 0, i 1, eq_ix2 i⟩
  have ha : a.val < 128 := by have := a.isLt; omega
  rw [Tail.protos_apply _ _ _ _ a e ha, resultPooled_apply]
  unfold protoPooled
  simp only [sum_segOut m c ⟨a.val, ha⟩, sum_cntOut m c ⟨a.val, ha⟩]

/-- The idealized kernel's run, read: every weakly fair execution terminates with the result at the pooled prototypes
    of the arguments and the arguments unchanged. -/
theorem run : θ_run defs (onTc (τ := τ) (main (F := Ideal))) ⟨m, fun _ => 0, ρ⟩ (fun r => ∀ c : Dev nD,
      r.2.mem ((c.tc : Thread nD τ).loc main_v19) = resultPooled (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v19 (Pipeline.mem_restRefs_of main_v19 (by decide) (by decide))).trans
        ((tail_eq m c).trans (by rw [final2, final3]; exact protos_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)
end result

end Cert.KernelIdeal.Result

end
-- ==== Proof.lean ====
/-
  Class prototypes by pooling first against class prototypes by embedding first.

  The kernel sums the raw rows of each class (a one-hot product accumulated over a hundred row blocks, in two halves),
  counts the class, and on the host multiplies the pooled sums into `W`, divides by the count (at least one) and adds
  the bias where the class is not empty. The reference embeds every row (`X · W + b`), sums the embedded rows of each
  class and divides by the count (at least one). Over the extended reals, on finite inputs, the two are one function:
  the embedding is linear, so it commutes with the sum over a class, and a bias summed over `k ≥ 1` rows and divided by
  `k` is the bias; an empty class gives zero on both sides. Labels outside `0 … 63` fall in no class on either side:
  the kernel's one-hot rows `64 … 127` are sliced away and other labels match no row, and the reference's scatter
  drops an update whose row number, read signed, is outside the table.

  The three frames are the generated ones (the reference's from its generated run); the one rewrite of the ideal pass,
  a rounding through bf16 and back replaced by the identity, is its rule's statement.
-/
import proofs.«407838_j70454643524168_3_alg».proof.Defs
import proofs.«407838_j70454643524168_3_alg».proof.Proof.Gen.Kernel
import proofs.«407838_j70454643524168_3_alg».proof.Proof.Gen.Kernel.Skeleton
import proofs.«407838_j70454643524168_3_alg».proof.Proof.Gen.Kernel.Launch
import proofs.«407838_j70454643524168_3_alg».proof.Proof.Gen.Kernel.Points
import proofs.«407838_j70454643524168_3_alg».proof.Proof.Gen.Kernel.Frame
import proofs.«407838_j70454643524168_3_alg».proof.Proof.Gen.KernelIdeal
import proofs.«407838_j70454643524168_3_alg».proof.Proof.Gen.KernelIdeal.Skeleton
import proofs.«407838_j70454643524168_3_alg».proof.Proof.Gen.KernelIdeal.Launch
import proofs.«407838_j70454643524168_3_alg».proof.Proof.Gen.KernelIdeal.Points
import proofs.«407838_j70454643524168_3_alg».proof.Proof.Gen.KernelIdeal.Frame
import proofs.«407838_j70454643524168_3_alg».proof.Proof.Gen.ReferenceIdeal
import proofs.«407838_j70454643524168_3_alg».proof.Proof.Gen.Pre_finite_inputs
import proofs.«407838_j70454643524168_3_alg».proof.Proof.Gen.ReferenceIdeal.Run
import proofs.«407838_j70454643524168_3_alg».proof.Proof.Gen.ReferenceIdeal.Read
import proofs.«407838_j70454643524168_3_alg».proof.Proof.Spec
import proofs.«407838_j70454643524168_3_alg».proof.Proof.Algebra
import proofs.«407838_j70454643524168_3_alg».proof.Proof.Finite
import proofs.«407838_j70454643524168_3_alg».proof.Proof.RefValue
import proofs.«407838_j70454643524168_3_alg».proof.Proof.KernelValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass's one rewrite: the one-hot table rounded to bf16 and widened back is, at the ideal instance, the
    table itself. -/
theorem preserves : Cert.preserves_Kernel_KernelIdeal :=
  IdealRules.truncf_extf.statement Cert.KernelIdeal.S128x10000 .f32 .bf16

/-- At the ideal instance the kernel ends at the pooled prototypes of its arguments and the reference at the embedded
    prototypes of arguments that agree; on finite inputs the two are one array. -/
theorem algebraic : Cert.algebraic_KernelIdeal_ReferenceIdeal := by
  intro m ρ m' ρ' hpre hagree
  refine ⟨fun c => Cert.Proto.resultPooled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3⟩ := Cert.Proto.Finite.real_of_pre _ _ _ _ (hpre c)
  rw [Cert.ReferenceIdeal.Read.val_main_v15_eq, (hagree c).1, (hagree c).2.1, (hagree c).2.2.1, (hagree c).2.2.2,
    Cert.ReferenceIdeal.RefValue.ref_eq]
  exact (Cert.Proto.resultPooled_eq_resultEmbedded _ _ _ _ h0 h2 h3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
